-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v66)) (v2 : (c : Dev Cert.KernelIdeal.nD) → Buf (Elt Ideal) ((c.tc : Thread Cert.KernelIdeal.nD Cert.KernelIdeal.τ).loc Cert.KernelIdeal.main_v50)) (v3 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_v69) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x500000 : Shape := ⟨2, ![2, 500000]⟩
abbrev S500000x64 : Shape := ⟨2, ![500000, 64]⟩
abbrev S2x1000000 : Shape := ⟨2, ![2, 1000000]⟩
abbrev S1000000x32 : Shape := ⟨2, ![1000000, 32]⟩
abbrev S64x32 : Shape := ⟨2, ![64, 32]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S64x32 : S_.BroadcastsInDim S64x32 (![] : Fin 0 → Fin S64x32.rank)
  reducesTo_S64x32_S_d0_1 : S64x32.ReducesTo [0, 1] S_

variable [Facts]

def fn {F : FTy → Type} [FloatOps F] (main_arg0 : IVec S2x500000 32) (main_arg1 : FVec F S500000x64 .f32) (main_arg2 : IVec S2x1000000 32) (main_arg3 : FVec F S1000000x32 .f32) (main_arg4 : FVec F S64x32 .f32) : IVec S_ 1 :=
  let main_v0 : FVec F S500000x64 .f32 := Host.absf main_arg1
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S1000000x32 .f32 := Host.absf main_arg3
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  main_v13
-- ==== Kernel.lean ====
abbrev S2x500000 : Shape := ⟨2, ![2, 500000]⟩
abbrev S500000x64 : Shape := ⟨2, ![500000, 64]⟩
abbrev S2x1000000 : Shape := ⟨2, ![2, 1000000]⟩
abbrev S1000000x32 : Shape := ⟨2, ![1000000, 32]⟩
abbrev S64x32 : Shape := ⟨2, ![64, 32]⟩
abbrev S32x64 : Shape := ⟨2, ![32, 64]⟩
abbrev S1000000x64 : Shape := ⟨2, ![1000000, 64]⟩
abbrev S25000x32 : Shape := ⟨2, ![25000, 32]⟩
abbrev S25000x64 : Shape := ⟨2, ![25000, 64]⟩
abbrev S1x500000 : Shape := ⟨2, ![1, 500000]⟩
abbrev S500000 : Shape := ⟨1, ![500000]⟩
abbrev S1x1000000 : Shape := ⟨2, ![1, 1000000]⟩
abbrev S1000000 : Shape := ⟨1, ![1000000]⟩
abbrev S1500000 : Shape := ⟨1, ![1500000]⟩
abbrev S1500000x64 : Shape := ⟨2, ![1500000, 64]⟩
abbrev S_ : Shape := ⟨0, ![]⟩
abbrev S1500000x1 : Shape := ⟨2, ![1500000, 1]⟩
abbrev S1 : Shape := ⟨1, ![1]⟩
abbrev S1499999 : Shape := ⟨1, ![1499999]⟩

abbrev nBuf : Space → Nat
  | .hbm => 96
  | .vmem => 5
  | .smem => 0
  | _ => 0

abbrev bufTy : (tb : Table) → Fin (tcTables nBuf tb) → BufTy
  | .hbm, ⟨0, _⟩ => ⟨S2x500000, .i32⟩
  | .hbm, ⟨1, _⟩ => ⟨S500000x64, .f32⟩
  | .hbm, ⟨2, _⟩ => ⟨S2x1000000, .i32⟩
  | .hbm, ⟨3, _⟩ => ⟨S1000000x32, .f32⟩
  | .hbm, ⟨4, _⟩ => ⟨S64x32, .f32⟩
  | .hbm, ⟨5, _⟩ => ⟨S32x64, .f32⟩
  | .hbm, ⟨6, _⟩ => ⟨S1000000x64, .f32⟩
  | .hbm, ⟨7, _⟩ => ⟨S1x500000, .i32⟩
  | .hbm, ⟨8, _⟩ => ⟨S500000, .i32⟩
  | .hbm, ⟨9, _⟩ => ⟨S1x1000000, .i32⟩
  | .hbm, ⟨10, _⟩ => ⟨S1000000, .i32⟩
  | .hbm, ⟨11, _⟩ => ⟨S1500000, .i32⟩
  | .hbm, ⟨12, _⟩ => ⟨S1x500000, .i32⟩
  | .hbm, ⟨13, _⟩ => ⟨S500000, .i32⟩
  | .hbm, ⟨14, _⟩ => ⟨S1x1000000, .i32⟩
  | .hbm, ⟨15, _⟩ => ⟨S1000000, .i32⟩
  | .hbm, ⟨16, _⟩ => ⟨S1500000, .i32⟩
  | .hbm, ⟨17, _⟩ => ⟨S1500000x64, .f32⟩
  | .hbm, ⟨18, _⟩ => ⟨S1500000, .i32⟩
  | .hbm, ⟨19, _⟩ => ⟨S1500000, .i32⟩
  | .hbm, ⟨20, _⟩ => ⟨S1500000, .i32⟩
  | .hbm, ⟨21, _⟩ => ⟨S1500000, .i32⟩
  | .hbm, ⟨22, _⟩ => ⟨S_, .i32⟩
  | .hbm, ⟨23, _⟩ => ⟨S1500000, .i32⟩
  | .hbm, ⟨24, _⟩ => ⟨S1500000, .i1⟩
  | .hbm, ⟨25, _⟩ => ⟨S_, .i32⟩
  | .hbm, ⟨26, _⟩ => ⟨S1500000, .i32⟩
  | .hbm, ⟨27, _⟩ => ⟨S1500000, .i32⟩
  | .hbm, ⟨28, _⟩ => ⟨S1500000, .i32⟩
  | .hbm, ⟨29, _⟩ => ⟨S1500000x1, .i32⟩
  | .hbm, ⟨30, _⟩ => ⟨S1500000, .i32⟩
  | .hbm, ⟨31, _⟩ => ⟨S_, .i32⟩
  | .hbm, ⟨32, _⟩ => ⟨S1500000, .i32⟩
  | .hbm, ⟨33, _⟩ => ⟨S1500000, .i1⟩
  | .hbm, ⟨34, _⟩ => ⟨S_, .i32⟩
  | .hbm, ⟨35, _⟩ => ⟨S1500000, .i32⟩
  | .hbm, ⟨36, _⟩ => ⟨S1500000, .i32⟩
  | .hbm, ⟨37, _⟩ => ⟨S1500000, .i32⟩
  | .hbm, ⟨38, _⟩ => ⟨S1500000x1, .i32⟩
  | .hbm, ⟨39, _⟩ => ⟨S1500000, .i32⟩
  | .hbm, ⟨40, _⟩ => ⟨S_, .i32⟩
  | .hbm, ⟨41, _⟩ => ⟨S1500000, .i32⟩
  | .hbm, ⟨42, _⟩ => ⟨S1500000, .i1⟩
  | .hbm, ⟨43, _⟩ => ⟨S_, .i32⟩
  | .hbm, ⟨44, _⟩ => ⟨S1500000, .i32⟩
  | .hbm, ⟨45, _⟩ => ⟨S1500000, .i32⟩
  | .hbm, ⟨46, _⟩ => ⟨S1500000, .i32⟩
  | .hbm, ⟨47, _⟩ => ⟨S1500000x1, .i32⟩
  | .hbm, ⟨48, _⟩ => ⟨S1500000x64, .f32⟩
  | .hbm, ⟨49, _⟩ => ⟨S_, .i1⟩
  | .hbm, ⟨50, _⟩ => ⟨S1, .i1⟩
  | .hbm, ⟨51, _⟩ => ⟨S1499999, .i32⟩
  | .hbm, ⟨52, _⟩ => ⟨S1499999, .i32⟩
  | .hbm, ⟨53, _⟩ => ⟨S1499999, .i1⟩
  | .hbm, ⟨54, _⟩ => ⟨S1499999, .i32⟩
  | .hbm, ⟨55, _⟩ => ⟨S1499999, .i32⟩
  | .hbm, ⟨56, _⟩ => ⟨S1499999, .i1⟩
  | .hbm, ⟨57, _⟩ => ⟨S1499999, .i1⟩
  | .hbm, ⟨58, _⟩ => ⟨S1500000, .i1⟩
  | .hbm, ⟨59, _⟩ => ⟨S1500000, .i32⟩
  | .hbm, ⟨60, _⟩ => ⟨S_, .i32⟩
  | .hbm, ⟨61, _⟩ => ⟨S_, .i32⟩
  | .hbm, ⟨62, _⟩ => ⟨S1500000, .i32⟩
  | .hbm, ⟨63, _⟩ => ⟨S_, .i32⟩
  | .hbm, ⟨64, _⟩ => ⟨S1500000, .i32⟩
  | .hbm, ⟨65, _⟩ => ⟨S1500000, .i32⟩
  | .hbm, ⟨66, _⟩ => ⟨S_, .f32⟩
  | .hbm, ⟨67, _⟩ => ⟨S1500000x64, .f32⟩
  | .hbm, ⟨68, _⟩ => ⟨S1500000x1, .i32⟩
  | .hbm, ⟨69, _⟩ => ⟨S1500000x64, .f32⟩
  | .hbm, ⟨70, _⟩ => ⟨S_, .i32⟩
  | .hbm, ⟨71, _⟩ => ⟨S1500000, .i32⟩
  | .hbm, ⟨72, _⟩ => ⟨S_, .i32⟩
  | .hbm, ⟨73, _⟩ => ⟨S1500000, .i32⟩
  | .hbm, ⟨74, _⟩ => ⟨S1500000, .i1⟩
  | .hbm, ⟨75, _⟩ => ⟨S_, .i32⟩
  | .hbm, ⟨76, _⟩ => ⟨S1500000, .i32⟩
  | .hbm, ⟨77, _⟩ => ⟨S1500000, .i32⟩
  | .hbm, ⟨78, _⟩ => ⟨S1500000, .i32⟩
  | .hbm, ⟨79, _⟩ => ⟨S1500000x1, .i32⟩
  | .hbm, ⟨80, _⟩ => ⟨S1500000, .i32⟩
  | .hbm, ⟨81, _⟩ => ⟨S_, .i32⟩
  | .hbm, ⟨82, _⟩ => ⟨S1500000, .i32⟩
  | .hbm, ⟨83, _⟩ => ⟨S_, .i32⟩
  | .hbm, ⟨84, _⟩ => ⟨S1500000, .i32⟩
  | .hbm, ⟨85, _⟩ => ⟨S1500000, .i1⟩
  | .hbm, ⟨86, _⟩ => ⟨S_, .i32⟩
  | .hbm, ⟨87, _⟩ => ⟨S1500000, .i32⟩
  | .hbm, ⟨88, _⟩ => ⟨S1500000, .i32⟩
  | .hbm, ⟨89, _⟩ => ⟨S1500000, .i32⟩
  | .hbm, ⟨90, _⟩ => ⟨S1500000x1, .i32⟩
  | .hbm, ⟨91, _⟩ => ⟨S1500000, .i32⟩
  | .hbm, ⟨92, _⟩ => ⟨S1, .i32⟩
  | .hbm, ⟨93, _⟩ => ⟨S_, .i32⟩
  | .hbm, ⟨94, _⟩ => ⟨S_, .i32⟩
  | .hbm, ⟨95, _⟩ => ⟨S_, .i32⟩
  | .local _ .vmem, ⟨0, _⟩ => ⟨S25000x32, .f32⟩
  | .local _ .vmem, ⟨1, _⟩ => ⟨S25000x32, .f32⟩
  | .local _ .vmem, ⟨2, _⟩ => ⟨S32x64, .f32⟩
  | .local _ .vmem, ⟨3, _⟩ => ⟨S25000x64, .f32⟩
  | .local _ .vmem, ⟨4, _⟩ => ⟨S25000x64, .f32⟩
  | _, _ => ⟨S2x500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_v1_0 : Ref sig .tc := ⟨.hbm, 19, rfl⟩
abbrev main_call0_v1_1 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call1_call0_c : Ref sig .tc := ⟨.hbm, 60, rfl⟩
abbrev main_call1_call0_v0 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_cst : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x32_S32x64_1_0 : S64x32.Transposes [1, 0] S32x64
  inb_S25000x32_S25000x32_0_0 : ∀ a, (![0, 0] : Fin 2 → Nat) a + S25000x32.size a ≤ S25000x32.size a
  h_S25000x32 : 0 < S25000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S25000x64_S25000x64_0_0 : ∀ a, (![0, 0] : Fin 2 → Nat) a + S25000x64.size a ≤ S25000x64.size a
  h_S25000x64 : 0 < S25000x64.numel
  slices_S2x500000_S1x500000_0_0 : S2x500000.Slices ![0, 0] S1x500000
  shapeCasts_S1x500000_S500000 : S1x500000.ShapeCasts S500000
  slices_S2x1000000_S1x1000000_0_0 : S2x1000000.Slices ![0, 0] S1x1000000
  shapeCasts_S1x1000000_S1000000 : S1x1000000.ShapeCasts S1000000
  concatenates_S500000_S1000000_S1500000_d0 : Shape.Concatenates [S500000, S1000000] S1500000 0
  slices_S2x500000_S1x500000_1_0 : S2x500000.Slices ![1, 0] S1x500000
  slices_S2x1000000_S1x1000000_1_0 : S2x1000000.Slices ![1, 0] S1x1000000
  concatenates_S500000x64_S1000000x64_S1500000x64_d0 : Shape.Concatenates [S500000x64, S1000000x64] S1500000x64 0
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S1 : S_.BroadcastsInDim S1 (![] : Fin 0 → Fin S1.rank)
  slices_S1500000_S1499999_1 : S1500000.Slices ![1] S1499999
  slices_S1500000_S1499999_0 : S1500000.Slices ![0] S1499999
  concatenates_S1_S1499999_S1500000_d0 : Shape.Concatenates [S1, S1499999] S1500000 0
  natLt_1_32 : 1 < 32
  bcast_S_S_ : S_.BroadcastsInDim S_ (![] : Fin 0 → Fin S_.rank)
  reduceWindows_S1500000_S1500000_w1500000s1p1499999_0 : S1500000.ReduceWindows (![1500000] : Fin 1 → Nat) ![1] ![1499999] ![0] S1500000
  h_S_ : 0 < S_.numel
  bcast_S_S1500000x64 : S_.BroadcastsInDim S1500000x64 (![] : Fin 0 → Fin S1500000x64.rank)
  slices_S1500000_S1_1499999 : S1500000.Slices ![1499999] S1
  shapeCasts_S1_S_ : S1.ShapeCasts S_
  dot_S25000x32_S32x64_S25000x64_1_0_0_1_n_n_wf : DotDims.WF S25000x32 S32x64 S25000x64 [1] [0] [0] [1] [] []
  gather_S1500000_S1500000x1_S1500000_n_0_n_n_0_1_1_wf : GatherDims.WF S1500000 S1500000x1 S1500000 [] [0] [] [0] [] 1 ![1]
  gather_S1500000x64_S1500000x1_S1500000x64_1_0_n_n_0_1_164_wf : GatherDims.WF S1500000x64 S1500000x1 S1500000x64 [1] [0] [] [0] [] 1 ![1, 64]
  scatter_S1500000x64_S1500000x1_S1500000x64_1_0_0_1_wf : ScatterDims.WF S1500000x64 S1500000x1 S1500000x64 [1] [0] [0] 1
  scatter_S1500000_S1500000x1_S1500000_n_0_0_1_wf : ScatterDims.WF S1500000 S1500000x1 S1500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x32.size a ≤ S1000000x32.size a
  hwx0_0 : ∀ i : grid0.Coords, EltTy.bits .f32 = 32 ∨ (Rect.block (s := S1000000x32) S25000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25000x64.size a ≤ S1000000x64.size a
  hwx0_2 : ∀ i : grid0.Coords, EltTy.bits .f32 = 32 ∨ (Rect.block (s := S1000000x64) S25000x64.size (cc0_transform_2 i) (hinb0_2 i)).WholeWords (EltTy.packing .f32)

variable [Facts₀]

def dot_S25000x32_S32x64_S25000x64_1_0_0_1_n_n : DotDims S25000x32 S32x64 S25000x64 where
  lhsContracting := [1]
  rhsContracting := [0]
  lhsNonContracting := [0]
  rhsNonContracting := [1]
  lhsBatch := []
  rhsBatch := []
  wf := dot_S25000x32_S32x64_S25000x64_1_0_0_1_n_n_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S1500000_S1500000x1_S1500000_n_0_n_n_0_1_1 : GatherDims S1500000 S1500000x1 S1500000 where
  offsetDims := []
  collapsedSliceDims := [0]
  operandBatchingDims := []
  startIndicesBatchingDims := []
  startIndexMap := [0]
  indexVectorDim := 1
  sliceSizes := ![1]
  wf := gather_S1500000_S1500000x1_S1500000_n_0_n_n_0_1_1_wf
def gather_S1500000x64_S1500000x1_S1500000x64_1_0_n_n_0_1_164 : GatherDims S1500000x64 S1500000x1 S1500000x64 where
  offsetDims := [1]
  collapsedSliceDims := [0]
  operandBatchingDims := []
  startIndicesBatchingDims := []
  startIndexMap := [0]
  indexVectorDim := 1
  sliceSizes := ![1, 64]
  wf := gather_S1500000x64_S1500000x1_S1500000x64_1_0_n_n_0_1_164_wf
def scatter_S1500000x64_S1500000x1_S1500000x64_1_0_0_1 : ScatterDims S1500000x64 S1500000x1 S1500000x64 where
  updateWindowDims := [1]
  insertedWindowDims := [0]
  scatterDimsToOperandDims := [0]
  indexVectorDim := 1
  wf := scatter_S1500000x64_S1500000x1_S1500000x64_1_0_0_1_wf
def scatter_S1500000_S1500000x1_S1500000_n_0_0_1 : ScatterDims S1500000 S1500000x1 S1500000 where
  updateWindowDims := []
  insertedWindowDims := [0]
  scatterDimsToOperandDims := [0]
  indexVectorDim := 1
  wf := scatter_S1500000_S1500000x1_S1500000_n_0_0_1_wf

abbrev win0_0 : Pipeline.Window sig grid0 :=
  Pipeline.Window.ofSpec (Memref.whole main_arg3) S25000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S25000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x500000 : Shape := ⟨2, ![2, 500000]⟩
abbrev S500000x64 : Shape := ⟨2, ![500000, 64]⟩
abbrev S2x1000000 : Shape := ⟨2, ![2, 1000000]⟩
abbrev S1000000x32 : Shape := ⟨2, ![1000000, 32]⟩
abbrev S64x32 : Shape := ⟨2, ![64, 32]⟩
abbrev S32x64 : Shape := ⟨2, ![32, 64]⟩
abbrev S1000000x64 : Shape := ⟨2, ![1000000, 64]⟩
abbrev S1x500000 : Shape := ⟨2, ![1, 500000]⟩
abbrev S500000 : Shape := ⟨1, ![500000]⟩
abbrev S1x1000000 : Shape := ⟨2, ![1, 1000000]⟩
abbrev S1000000 : Shape := ⟨1, ![1000000]⟩
abbrev S1500000 : Shape := ⟨1, ![1500000]⟩
abbrev S1500000x64 : Shape := ⟨2, ![1500000, 64]⟩
abbrev S_ : Shape := ⟨0, ![]⟩
abbrev S1500000x1 : Shape := ⟨2, ![1500000, 1]⟩
abbrev S1 : Shape := ⟨1, ![1]⟩
abbrev S1499999 : Shape := ⟨1, ![1499999]⟩

abbrev nBuf : Space → Nat
  | .hbm => 96
  | .vmem => 0
  | .smem => 0
  | _ => 0

abbrev bufTy : (tb : Table) → Fin (tcTables nBuf tb) → BufTy
  | .hbm, ⟨0, _⟩ => ⟨S2x500000, .i32⟩
  | .hbm, ⟨1, _⟩ => ⟨S500000x64, .f32⟩
  | .hbm, ⟨2, _⟩ => ⟨S2x1000000, .i32⟩
  | .hbm, ⟨3, _⟩ => ⟨S1000000x32, .f32⟩
  | .hbm, ⟨4, _⟩ => ⟨S64x32, .f32⟩
  | .hbm, ⟨5, _⟩ => ⟨S32x64, .f32⟩
  | .hbm, ⟨6, _⟩ => ⟨S1000000x64, .f32⟩
  | .hbm, ⟨7, _⟩ => ⟨S1x500000, .i32⟩
  | .hbm, ⟨8, _⟩ => ⟨S500000, .i32⟩
  | .hbm, ⟨9, _⟩ => ⟨S1x1000000, .i32⟩
  | .hbm, ⟨10, _⟩ => ⟨S1000000, .i32⟩
  | .hbm, ⟨11, _⟩ => ⟨S1500000, .i32⟩
  | .hbm, ⟨12, _⟩ => ⟨S1x500000, .i32⟩
  | .hbm, ⟨13, _⟩ => ⟨S500000, .i32⟩
  | .hbm, ⟨14, _⟩ => ⟨S1x1000000, .i32⟩
  | .hbm, ⟨15, _⟩ => ⟨S1000000, .i32⟩
  | .hbm, ⟨16, _⟩ => ⟨S1500000, .i32⟩
  | .hbm, ⟨17, _⟩ => ⟨S1500000x64, .f32⟩
  | .hbm, ⟨18, _⟩ => ⟨S1500000, .i32⟩
  | .hbm, ⟨19, _⟩ => ⟨S1500000, .i32⟩
  | .hbm, ⟨20, _⟩ => ⟨S1500000, .i32⟩
  | .hbm, ⟨21, _⟩ => ⟨S1500000, .i32⟩
  | .hbm, ⟨22, _⟩ => ⟨S_, .i32⟩
  | .hbm, ⟨23, _⟩ => ⟨S1500000, .i32⟩
  | .hbm, ⟨24, _⟩ => ⟨S1500000, .i1⟩
  | .hbm, ⟨25, _⟩ => ⟨S_, .i32⟩
  | .hbm, ⟨26, _⟩ => ⟨S1500000, .i32⟩
  | .hbm, ⟨27, _⟩ => ⟨S1500000, .i32⟩
  | .hbm, ⟨28, _⟩ => ⟨S1500000, .i32⟩
  | .hbm, ⟨29, _⟩ => ⟨S1500000x1, .i32⟩
  | .hbm, ⟨30, _⟩ => ⟨S1500000, .i32⟩
  | .hbm, ⟨31, _⟩ => ⟨S_, .i32⟩
  | .hbm, ⟨32, _⟩ => ⟨S1500000, .i32⟩
  | .hbm, ⟨33, _⟩ => ⟨S1500000, .i1⟩
  | .hbm, ⟨34, _⟩ => ⟨S_, .i32⟩
  | .hbm, ⟨35, _⟩ => ⟨S1500000, .i32⟩
  | .hbm, ⟨36, _⟩ => ⟨S1500000, .i32⟩
  | .hbm, ⟨37, _⟩ => ⟨S1500000, .i32⟩
  | .hbm, ⟨38, _⟩ => ⟨S1500000x1, .i32⟩
  | .hbm, ⟨39, _⟩ => ⟨S1500000, .i32⟩
  | .hbm, ⟨40, _⟩ => ⟨S_, .i32⟩
  | .hbm, ⟨41, _⟩ => ⟨S1500000, .i32⟩
  | .hbm, ⟨42, _⟩ => ⟨S1500000, .i1⟩
  | .hbm, ⟨43, _⟩ => ⟨S_, .i32⟩
  | .hbm, ⟨44, _⟩ => ⟨S1500000, .i32⟩
  | .hbm, ⟨45, _⟩ => ⟨S1500000, .i32⟩
  | .hbm, ⟨46, _⟩ => ⟨S1500000, .i32⟩
  | .hbm, ⟨47, _⟩ => ⟨S1500000x1, .i32⟩
  | .hbm, ⟨48, _⟩ => ⟨S1500000x64, .f32⟩
  | .hbm, ⟨49, _⟩ => ⟨S_, .i1⟩
  | .hbm, ⟨50, _⟩ => ⟨S1, .i1⟩
  | .hbm, ⟨51, _⟩ => ⟨S1499999, .i32⟩
  | .hbm, ⟨52, _⟩ => ⟨S1499999, .i32⟩
  | .hbm, ⟨53, _⟩ => ⟨S1499999, .i1⟩
  | .hbm, ⟨54, _⟩ => ⟨S1499999, .i32⟩
  | .hbm, ⟨55, _⟩ => ⟨S1499999, .i32⟩
  | .hbm, ⟨56, _⟩ => ⟨S1499999, .i1⟩
  | .hbm, ⟨57, _⟩ => ⟨S1499999, .i1⟩
  | .hbm, ⟨58, _⟩ => ⟨S1500000, .i1⟩
  | .hbm, ⟨59, _⟩ => ⟨S1500000, .i32⟩
  | .hbm, ⟨60, _⟩ => ⟨S_, .i32⟩
  | .hbm, ⟨61, _⟩ => ⟨S_, .i32⟩
  | .hbm, ⟨62, _⟩ => ⟨S1500000, .i32⟩
  | .hbm, ⟨63, _⟩ => ⟨S_, .i32⟩
  | .hbm, ⟨64, _⟩ => ⟨S1500000, .i32⟩
  | .hbm, ⟨65, _⟩ => ⟨S1500000, .i32⟩
  | .hbm, ⟨66, _⟩ => ⟨S_, .f32⟩
  | .hbm, ⟨67, _⟩ => ⟨S1500000x64, .f32⟩
  | .hbm, ⟨68, _⟩ => ⟨S1500000x1, .i32⟩
  | .hbm, ⟨69, _⟩ => ⟨S1500000x64, .f32⟩
  | .hbm, ⟨70, _⟩ => ⟨S_, .i32⟩
  | .hbm, ⟨71, _⟩ => ⟨S1500000, .i32⟩
  | .hbm, ⟨72, _⟩ => ⟨S_, .i32⟩
  | .hbm, ⟨73, _⟩ => ⟨S1500000, .i32⟩
  | .hbm, ⟨74, _⟩ => ⟨S1500000, .i1⟩
  | .hbm, ⟨75, _⟩ => ⟨S_, .i32⟩
  | .hbm, ⟨76, _⟩ => ⟨S1500000, .i32⟩
  | .hbm, ⟨77, _⟩ => ⟨S1500000, .i32⟩
  | .hbm, ⟨78, _⟩ => ⟨S1500000, .i32⟩
  | .hbm, ⟨79, _⟩ => ⟨S1500000x1, .i32⟩
  | .hbm, ⟨80, _⟩ => ⟨S1500000, .i32⟩
  | .hbm, ⟨81, _⟩ => ⟨S_, .i32⟩
  | .hbm, ⟨82, _⟩ => ⟨S1500000, .i32⟩
  | .hbm, ⟨83, _⟩ => ⟨S_, .i32⟩
  | .hbm, ⟨84, _⟩ => ⟨S1500000, .i32⟩
  | .hbm, ⟨85, _⟩ => ⟨S1500000, .i1⟩
  | .hbm, ⟨86, _⟩ => ⟨S_, .i32⟩
  | .hbm, ⟨87, _⟩ => ⟨S1500000, .i32⟩
  | .hbm, ⟨88, _⟩ => ⟨S1500000, .i32⟩
  | .hbm, ⟨89, _⟩ => ⟨S1500000, .i32⟩
  | .hbm, ⟨90, _⟩ => ⟨S1500000x1, .i32⟩
  | .hbm, ⟨91, _⟩ => ⟨S1500000, .i32⟩
  | .hbm, ⟨92, _⟩ => ⟨S1, .i32⟩
  | .hbm, ⟨93, _⟩ => ⟨S_, .i32⟩
  | .hbm, ⟨94, _⟩ => ⟨S_, .i32⟩
  | .hbm, ⟨95, _⟩ => ⟨S_, .i32⟩
  | _, _ => ⟨S2x500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_v1_0 : Ref sig .tc := ⟨.hbm, 19, rfl⟩
abbrev main_call0_v1_1 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call1_call0_c : Ref sig .tc := ⟨.hbm, 60, rfl⟩
abbrev main_call1_call0_v0 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_cst : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  transposes_S64x32_S32x64_1_0 : S64x32.Transposes [1, 0] S32x64
  slices_S2x500000_S1x500000_0_0 : S2x500000.Slices ![0, 0] S1x500000
  shapeCasts_S1x500000_S500000 : S1x500000.ShapeCasts S500000
  slices_S2x1000000_S1x1000000_0_0 : S2x1000000.Slices ![0, 0] S1x1000000
  shapeCasts_S1x1000000_S1000000 : S1x1000000.ShapeCasts S1000000
  concatenates_S500000_S1000000_S1500000_d0 : Shape.Concatenates [S500000, S1000000] S1500000 0
  slices_S2x500000_S1x500000_1_0 : S2x500000.Slices ![1, 0] S1x500000
  slices_S2x1000000_S1x1000000_1_0 : S2x1000000.Slices ![1, 0] S1x1000000
  concatenates_S500000x64_S1000000x64_S1500000x64_d0 : Shape.Concatenates [S500000x64, S1000000x64] S1500000x64 0
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S1 : S_.BroadcastsInDim S1 (![] : Fin 0 → Fin S1.rank)
  slices_S1500000_S1499999_1 : S1500000.Slices ![1] S1499999
  slices_S1500000_S1499999_0 : S1500000.Slices ![0] S1499999
  concatenates_S1_S1499999_S1500000_d0 : Shape.Concatenates [S1, S1499999] S1500000 0
  natLt_1_32 : 1 < 32
  bcast_S_S_ : S_.BroadcastsInDim S_ (![] : Fin 0 → Fin S_.rank)
  reduceWindows_S1500000_S1500000_w1500000s1p1499999_0 : S1500000.ReduceWindows (![1500000] : Fin 1 → Nat) ![1] ![1499999] ![0] S1500000
  h_S_ : 0 < S_.numel
  bcast_S_S1500000x64 : S_.BroadcastsInDim S1500000x64 (![] : Fin 0 → Fin S1500000x64.rank)
  slices_S1500000_S1_1499999 : S1500000.Slices ![1499999] S1
  shapeCasts_S1_S_ : S1.ShapeCasts S_
  dot_S1000000x32_S32x64_S1000000x64_1_0_0_1_n_n_wf : DotDims.WF S1000000x32 S32x64 S1000000x64 [1] [0] [0] [1] [] []
  gather_S1500000_S1500000x1_S1500000_n_0_n_n_0_1_1_wf : GatherDims.WF S1500000 S1500000x1 S1500000 [] [0] [] [0] [] 1 ![1]
  gather_S1500000x64_S1500000x1_S1500000x64_1_0_n_n_0_1_164_wf : GatherDims.WF S1500000x64 S1500000x1 S1500000x64 [1] [0] [] [0] [] 1 ![1, 64]
  scatter_S1500000x64_S1500000x1_S1500000x64_1_0_0_1_wf : ScatterDims.WF S1500000x64 S1500000x1 S1500000x64 [1] [0] [0] 1
  scatter_S1500000_S1500000x1_S1500000_n_0_0_1_wf : ScatterDims.WF S1500000 S1500000x1 S1500000 [] [0] [0] 1

variable [Facts₀]

def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S1500000_S1500000x1_S1500000_n_0_n_n_0_1_1 : GatherDims S1500000 S1500000x1 S1500000 where
  offsetDims := []
  collapsedSliceDims := [0]
  operandBatchingDims := []
  startIndicesBatchingDims := []
  startIndexMap := [0]
  indexVectorDim := 1
  sliceSizes := ![1]
  wf := gather_S1500000_S1500000x1_S1500000_n_0_n_n_0_1_1_wf
def gather_S1500000x64_S1500000x1_S1500000x64_1_0_n_n_0_1_164 : GatherDims S1500000x64 S1500000x1 S1500000x64 where
  offsetDims := [1]
  collapsedSliceDims := [0]
  operandBatchingDims := []
  startIndicesBatchingDims := []
  startIndexMap := [0]
  indexVectorDim := 1
  sliceSizes := ![1, 64]
  wf := gather_S1500000x64_S1500000x1_S1500000x64_1_0_n_n_0_1_164_wf
def scatter_S1500000x64_S1500000x1_S1500000x64_1_0_0_1 : ScatterDims S1500000x64 S1500000x1 S1500000x64 where
  updateWindowDims := [1]
  insertedWindowDims := [0]
  scatterDimsToOperandDims := [0]
  indexVectorDim := 1
  wf := scatter_S1500000x64_S1500000x1_S1500000x64_1_0_0_1_wf
def scatter_S1500000_S1500000x1_S1500000_n_0_0_1 : ScatterDims S1500000 S1500000x1 S1500000 where
  updateWindowDims := []
  insertedWindowDims := [0]
  scatterDimsToOperandDims := [0]
  indexVectorDim := 1
  wf := scatter_S1500000_S1500000x1_S1500000_n_0_0_1_wf

class Facts : Prop extends Facts₀ where

variable [Facts]
-- ==== Proof.FrameBits.lean ====
/-
  The run of the program around its one kernel region, at any float instance.

  @main is: one host line (the weight matrix transposed, 64×32 → 32×64), the region, and 89 host lines in five
  stretches (the index rows and columns joined; the lexicographic sort; the sorted gathers and the segment flags;
  the prefix sum; the scatters). The region walks 40 grid points; at point t it stages rows 25000·t … 25000·t+24999
  of the 1000000×32 operand, the whole 32×64 transposed weight (fetched once, at the first point), and writes back
  rows 25000·t … of the 1000000×64 result. The body loads both staged blocks and stores ONE value over the whole
  output block: the matrix product of the two loaded blocks into a zero accumulator (`k0_pay1`).

  Proof data: the arrays as the region finds them (`V`: the launch contents after the first host line); after the
  body each input's staging buffer at its block and the output's at the product of the two input blocks. The 89 later
  lines touch no staging buffer, allocate nothing and write none of the region's three arrays, so the run goes
  through the library's frame theorem for a region followed by host lines; its post names the result array after
  the region (`arrAt 2 N`) and every other buffer as the later lines leave it. The five argument arrays end as
  launched: no line writes them.
-/
import proofs.«103443_j23416161698498_1_alg».proof.Proof.Gen.Kernel.Launch
import proofs.«103443_j23416161698498_1_alg».proof.Proof.Gen.Kernel.Skeleton
import proofs.«103443_j23416161698498_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the transposition. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The five stretches of host lines after the region, in order. -/
abbrev tail : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 4000000 in
/-- @main is the first host line, the region, and the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- The later lines touch only the region's arrays and the buffers that bypass it. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Which buffer each line writes, decided line by line: a given reference is written by none of a literal list of
    lines when it differs from every line's result buffer. -/
local macro "no_line_writes" : tactic => `(tactic| (
  refine List.forall_iff_forall_mem.mp ?_
  simp only [hostOps0, hostOps1, hostOps1_1, hostOps1_2, hostOps1_3, hostOps1_4, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem tail_keeps_arg0 : ∀ op ∈ (tail (F := F)).flatten, Proc.devRef (τ := τ) .tc main_arg0 ∉ op.writes := by no_line_writes
theorem tail_keeps_arg1 : ∀ op ∈ (tail (F := F)).flatten, Proc.devRef (τ := τ) .tc main_arg1 ∉ op.writes := by no_line_writes
theorem tail_keeps_arg2 : ∀ op ∈ (tail (F := F)).flatten, Proc.devRef (τ := τ) .tc main_arg2 ∉ op.writes := by no_line_writes
theorem tail_keeps_arg3 : ∀ op ∈ (tail (F := F)).flatten, Proc.devRef (τ := τ) .tc main_arg3 ∉ op.writes := by no_line_writes
theorem tail_keeps_arg4 : ∀ op ∈ (tail (F := F)).flatten, Proc.devRef (τ := τ) .tc main_arg4 ∉ op.writes := by no_line_writes
theorem tail_keeps_v0 : ∀ op ∈ (tail (F := F)).flatten, Proc.devRef (τ := τ) .tc main_v0 ∉ op.writes := by no_line_writes
theorem tail_keeps_v1 : ∀ op ∈ (tail (F := F)).flatten, Proc.devRef (τ := τ) .tc main_v1 ∉ op.writes := by no_line_writes

/-- The later lines write none of the region's three arrays. -/
theorem sfx_keeps : ∀ ops ∈ (tail : List (List (HloOp τ sig (Elt F)))), ∀ op ∈ ops,
    ∀ w, Proc.devRef .tc (Pipeline.arrRef spec0 w) ∉ op.writes := by
  intro ops hops op hop w
  have hmem : op ∈ (tail (F := F)).flatten := List.mem_flatten.mpr ⟨ops, hops, hop⟩
  fin_cases w
  · exact tail_keeps_arg3 op hmem
  · exact tail_keeps_v0 op hmem
  · exact tail_keeps_v1 op hmem

/-- The transposition writes its own result only: each argument array is found by the region as launched. -/
theorem V_main_arg0 (c : Dev nD) : V m c main_arg0 = m ((c : Thread nD τ).loc main_arg0) :=
  StableHlo.after_of_forall_not_mem (b := Proc.devRef .tc main_arg0) _ _ (by no_line_writes)
theorem V_main_arg1 (c : Dev nD) : V m c main_arg1 = m ((c : Thread nD τ).loc main_arg1) :=
  StableHlo.after_of_forall_not_mem (b := Proc.devRef .tc main_arg1) _ _ (by no_line_writes)
theorem V_main_arg2 (c : Dev nD) : V m c main_arg2 = m ((c : Thread nD τ).loc main_arg2) :=
  StableHlo.after_of_forall_not_mem (b := Proc.devRef .tc main_arg2) _ _ (by no_line_writes)
theorem V_main_arg3 (c : Dev nD) : V m c main_arg3 = m ((c : Thread nD τ).loc main_arg3) :=
  StableHlo.after_of_forall_not_mem (b := Proc.devRef .tc main_arg3) _ _ (by no_line_writes)
theorem V_main_arg4 (c : Dev nD) : V m c main_arg4 = m ((c : Thread nD τ).loc main_arg4) :=
  StableHlo.after_of_forall_not_mem (b := Proc.devRef .tc main_arg4) _ _ (by no_line_writes)

/-- What the buffers hold after the later lines, for any proof data of the region. -/
abbrev W (dats : (p : Fin 1) → (c : Dev nD) → Dat τ (Elt F) Unit ℕ (UR sig nD τ) ℕ (cfgs p) c) (c : Dev nD) (b : Ref sig .tc) :
    Buf (Elt F) ((c.tc : Thread nD τ).loc b) :=
  Pipeline.afterTail₀ cfgs dats 0 (V0 m) tail c b

/-- An argument array that is no array of the region ends as launched: no later line writes it, and the region
    leaves it where it was. -/
theorem W_main_arg0 (dats : (p : Fin 1) → (c : Dev nD) → Dat τ (Elt F) Unit ℕ (UR sig nD τ) ℕ (cfgs p) c) (c : Dev nD) :
    W m dats c main_arg0 = m ((c : Thread nD τ).loc main_arg0) := by
  unfold W Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c
theorem W_main_arg1 (dats : (p : Fin 1) → (c : Dev nD) → Dat τ (Elt F) Unit ℕ (UR sig nD τ) ℕ (cfgs p) c) (c : Dev nD) :
    W m dats c main_arg1 = m ((c : Thread nD τ).loc main_arg1) := by
  unfold W Pipeline.afterTail₀
  rw [StableHlo.after_of_forall_not_mem (b := Proc.devRef .tc main_arg1) _ _ tail_keeps_arg1,
    Pipeline.withArrays_of_ne _ c (V0 m c) _ main_arg1 (by exact (by decide : ∀ w, Pipeline.arrRef spec0 w ≠ main_arg1))]
  exact V_main_arg1 m c
theorem W_main_arg2 (dats : (p : Fin 1) → (c : Dev nD) → Dat τ (Elt F) Unit ℕ (UR sig nD τ) ℕ (cfgs p) c) (c : Dev nD) :
    W m dats c main_arg2 = m ((c : Thread nD τ).loc main_arg2) := by
  unfold W Pipeline.afterTail₀
  rw [StableHlo.after_of_forall_not_mem (b := Proc.devRef .tc main_arg2) _ _ tail_keeps_arg2,
    Pipeline.withArrays_of_ne _ c (V0 m c) _ main_arg2 (by exact (by decide : ∀ w, Pipeline.arrRef spec0 w ≠ main_arg2))]
  exact V_main_arg2 m c
theorem W_main_arg4 (dats : (p : Fin 1) → (c : Dev nD) → Dat τ (Elt F) Unit ℕ (UR sig nD τ) ℕ (cfgs p) c) (c : Dev nD) :
    W m dats c main_arg4 = m ((c : Thread nD τ).loc main_arg4) := by
  unfold W Pipeline.afterTail₀
  rw [StableHlo.after_of_forall_not_mem (b := Proc.devRef .tc main_arg4) _ _ tail_keeps_arg4,
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block operand's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight operand's staging buffer holds the whole transposed weight at every point: fetched at the first, and
    left in place by the body at every point, its block index never moving. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S25000x32 := Rect.unit (s := S25000x32) ![0, 0] S25000x32.size inb_S25000x32_S25000x32_0_0
abbrev rW : Rect S32x64 := Rect.unit (s := S32x64) ![0, 0] S32x64.size inb_S32x64_S32x64_0_0
abbrev rO : Rect S25000x64 := Rect.unit (s := S25000x64) ![0, 0] S25000x64.size inb_S25000x64_S25000x64_0_0

/-- The output block after the body, from the two input blocks: its one store, over the whole block, of the product
    of the loaded blocks. -/
def out0_2 (x0 : Vec F S25000x32 .f32) (x1 : Vec F S32x64 .f32) : Vec F S25000x64 .f32 :=
  View.canon [⟨rO, k0_pay1 (View.ld x0 rX) (View.ld x1 rW)⟩]

/-- The one store covers the block. -/
theorem cover0_2 (p0 : Vec F S25000x64 .f32) (y : S25000x64.Idx) :
    ∃ pc ∈ ([⟨rO, p0⟩] : List (View.Piece (Elt F) S25000x64 .f32)), y ∈ pc.1.set :=
  View.cover_of_tiled [⟨rO, p0⟩] S25000x64.size (by rfl) y

set_option maxHeartbeats 1000000 in
/-- The body on whole staging memrefs — the inputs' at contents `x0`, `x1`, the output's at anything — runs to the
    continuation with the inputs' as they were and the output's at `out0_2 x0 x1`. -/
theorem sound_kernel (c : Dev nD) (E : Set ℕ) (i : grid0.Coords)
    (arg1 : Memref sig .tc .vmem S25000x32 .f32) (harg1 : arg1.IsWhole) (arg2 : Memref sig .tc .vmem S32x64 .f32) (harg2 : arg2.IsWhole)
    (arg3 : Memref sig .tc .vmem S25000x64 .f32) (harg3 : arg3.IsWhole)
    (x0 : Vec F S25000x32 .f32) (x1 : Vec F S32x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer at its block and the output's
    at the product of the two input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option maxHeartbeats 4000000 in
set_option backward.isDefEq.respectTransparency.types false in
/-- Every weakly fair execution of @main terminates, nothing faulting, and every final state has the region's arrays
    at what the proof data give and every other unscoped buffer as the later lines leave it. -/
theorem run_main : θ_run defs (onTc (τ := τ) (main (F := F))) (s₀ m ρ) (Pipeline.FramePost cfgs (dats m) 0 (W m (dats m))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The run's post read at the argument arrays: each ends as launched. The row-block operand is an array of the
    region that no point writes back; the other four bypass the region and no later line writes them. -/
theorem args_kept (r : PUnit × MemSt nD τ sig (Elt F)) (h : Pipeline.FramePost cfgs (dats m) 0 (W m (dats m)) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   (((h c).1 0).trans (((dats m 0 c).arrAt_in 0 rfl _).trans (A_eq m c 0))).trans (V_main_arg3 m c),
   ((h c).2 main_arg4 (Pipeline.mem_restRefs_of main_arg4 (by decide) (by decide))).trans (W_main_arg4 m (dats m) c)⟩

/-- THE FRAME: @main runs to the end, nothing faulting, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.Kernel.Fr

end
-- ==== Proof.FrameIdeal.lean ====
/-
  The run of the program around its one kernel region, at any float instance.

  @main is: one host line (the weight matrix transposed, 64×32 → 32×64), the region, and 89 host lines in five
  stretches (the index rows and columns joined; the lexicographic sort; the sorted gathers and the segment flags;
  the prefix sum; the scatters). The region walks 40 grid points; at point t it stages rows 25000·t … 25000·t+24999
  of the 1000000×32 operand, the whole 32×64 transposed weight (fetched once, at the first point), and writes back
  rows 25000·t … of the 1000000×64 result. The body loads both staged blocks and stores ONE value over the whole
  output block: the matrix product of the two loaded blocks into a zero accumulator (`k0_pay1`).

  Proof data: the arrays as the region finds them (`V`: the launch contents after the first host line); after the
  body each input's staging buffer at its block and the output's at the product of the two input blocks. The 89 later
  lines touch no staging buffer, allocate nothing and write none of the region's three arrays, so the run goes
  through the library's frame theorem for a region followed by host lines; its post names the result array after
  the region (`arrAt 2 N`) and every other buffer as the later lines leave it. The five argument arrays end as
  launched: no line writes them.
-/
import proofs.«103443_j23416161698498_1_alg».proof.Proof.Gen.KernelIdeal.Launch
import proofs.«103443_j23416161698498_1_alg».proof.Proof.Gen.KernelIdeal.Skeleton
import proofs.«103443_j23416161698498_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the transposition. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The five stretches of host lines after the region, in order. -/
abbrev tail : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 4000000 in
/-- @main is the first host line, the region, and the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- The later lines touch only the region's arrays and the buffers that bypass it. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tail : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Which buffer each line writes, decided line by line: a given reference is written by none of a literal list of
    lines when it differs from every line's result buffer. -/
local macro "no_line_writes" : tactic => `(tactic| (
  refine List.forall_iff_forall_mem.mp ?_
  simp only [hostOps0, hostOps1, hostOps1_1, hostOps1_2, hostOps1_3, hostOps1_4, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem tail_keeps_arg0 : ∀ op ∈ (tail (F := F)).flatten, Proc.devRef (τ := τ) .tc main_arg0 ∉ op.writes := by no_line_writes
theorem tail_keeps_arg1 : ∀ op ∈ (tail (F := F)).flatten, Proc.devRef (τ := τ) .tc main_arg1 ∉ op.writes := by no_line_writes
theorem tail_keeps_arg2 : ∀ op ∈ (tail (F := F)).flatten, Proc.devRef (τ := τ) .tc main_arg2 ∉ op.writes := by no_line_writes
theorem tail_keeps_arg3 : ∀ op ∈ (tail (F := F)).flatten, Proc.devRef (τ := τ) .tc main_arg3 ∉ op.writes := by no_line_writes
theorem tail_keeps_arg4 : ∀ op ∈ (tail (F := F)).flatten, Proc.devRef (τ := τ) .tc main_arg4 ∉ op.writes := by no_line_writes
theorem tail_keeps_v0 : ∀ op ∈ (tail (F := F)).flatten, Proc.devRef (τ := τ) .tc main_v0 ∉ op.writes := by no_line_writes
theorem tail_keeps_v1 : ∀ op ∈ (tail (F := F)).flatten, Proc.devRef (τ := τ) .tc main_v1 ∉ op.writes := by no_line_writes

/-- The later lines write none of the region's three arrays. -/
theorem sfx_keeps : ∀ ops ∈ (tail : List (List (HloOp τ sig (Elt F)))), ∀ op ∈ ops,
    ∀ w, Proc.devRef .tc (Pipeline.arrRef spec0 w) ∉ op.writes := by
  intro ops hops op hop w
  have hmem : op ∈ (tail (F := F)).flatten := List.mem_flatten.mpr ⟨ops, hops, hop⟩
  fin_cases w
  · exact tail_keeps_arg3 op hmem
  · exact tail_keeps_v0 op hmem
  · exact tail_keeps_v1 op hmem

/-- The transposition writes its own result only: each argument array is found by the region as launched. -/
theorem V_main_arg0 (c : Dev nD) : V m c main_arg0 = m ((c : Thread nD τ).loc main_arg0) :=
  StableHlo.after_of_forall_not_mem (b := Proc.devRef .tc main_arg0) _ _ (by no_line_writes)
theorem V_main_arg1 (c : Dev nD) : V m c main_arg1 = m ((c : Thread nD τ).loc main_arg1) :=
  StableHlo.after_of_forall_not_mem (b := Proc.devRef .tc main_arg1) _ _ (by no_line_writes)
theorem V_main_arg2 (c : Dev nD) : V m c main_arg2 = m ((c : Thread nD τ).loc main_arg2) :=
  StableHlo.after_of_forall_not_mem (b := Proc.devRef .tc main_arg2) _ _ (by no_line_writes)
theorem V_main_arg3 (c : Dev nD) : V m c main_arg3 = m ((c : Thread nD τ).loc main_arg3) :=
  StableHlo.after_of_forall_not_mem (b := Proc.devRef .tc main_arg3) _ _ (by no_line_writes)
theorem V_main_arg4 (c : Dev nD) : V m c main_arg4 = m ((c : Thread nD τ).loc main_arg4) :=
  StableHlo.after_of_forall_not_mem (b := Proc.devRef .tc main_arg4) _ _ (by no_line_writes)

/-- What the buffers hold after the later lines, for any proof data of the region. -/
abbrev W (dats : (p : Fin 1) → (c : Dev nD) → Dat τ (Elt F) Unit ℕ (UR sig nD τ) ℕ (cfgs p) c) (c : Dev nD) (b : Ref sig .tc) :
    Buf (Elt F) ((c.tc : Thread nD τ).loc b) :=
  Pipeline.afterTail₀ cfgs dats 0 (V0 m) tail c b

/-- An argument array that is no array of the region ends as launched: no later line writes it, and the region
    leaves it where it was. -/
theorem W_main_arg0 (dats : (p : Fin 1) → (c : Dev nD) → Dat τ (Elt F) Unit ℕ (UR sig nD τ) ℕ (cfgs p) c) (c : Dev nD) :
    W m dats c main_arg0 = m ((c : Thread nD τ).loc main_arg0) := by
  unfold W Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c
theorem W_main_arg1 (dats : (p : Fin 1) → (c : Dev nD) → Dat τ (Elt F) Unit ℕ (UR sig nD τ) ℕ (cfgs p) c) (c : Dev nD) :
    W m dats c main_arg1 = m ((c : Thread nD τ).loc main_arg1) := by
  unfold W Pipeline.afterTail₀
  rw [StableHlo.after_of_forall_not_mem (b := Proc.devRef .tc main_arg1) _ _ tail_keeps_arg1,
    Pipeline.withArrays_of_ne _ c (V0 m c) _ main_arg1 (by exact (by decide : ∀ w, Pipeline.arrRef spec0 w ≠ main_arg1))]
  exact V_main_arg1 m c
theorem W_main_arg2 (dats : (p : Fin 1) → (c : Dev nD) → Dat τ (Elt F) Unit ℕ (UR sig nD τ) ℕ (cfgs p) c) (c : Dev nD) :
    W m dats c main_arg2 = m ((c : Thread nD τ).loc main_arg2) := by
  unfold W Pipeline.afterTail₀
  rw [StableHlo.after_of_forall_not_mem (b := Proc.devRef .tc main_arg2) _ _ tail_keeps_arg2,
    Pipeline.withArrays_of_ne _ c (V0 m c) _ main_arg2 (by exact (by decide : ∀ w, Pipeline.arrRef spec0 w ≠ main_arg2))]
  exact V_main_arg2 m c
theorem W_main_arg4 (dats : (p : Fin 1) → (c : Dev nD) → Dat τ (Elt F) Unit ℕ (UR sig nD τ) ℕ (cfgs p) c) (c : Dev nD) :
    W m dats c main_arg4 = m ((c : Thread nD τ).loc main_arg4) := by
  unfold W Pipeline.afterTail₀
  rw [StableHlo.after_of_forall_not_mem (b := Proc.devRef .tc main_arg4) _ _ tail_keeps_arg4,
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block operand's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight operand's staging buffer holds the whole transposed weight at every point: fetched at the first, and
    left in place by the body at every point, its block index never moving. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S25000x32 := Rect.unit (s := S25000x32) ![0, 0] S25000x32.size inb_S25000x32_S25000x32_0_0
abbrev rW : Rect S32x64 := Rect.unit (s := S32x64) ![0, 0] S32x64.size inb_S32x64_S32x64_0_0
abbrev rO : Rect S25000x64 := Rect.unit (s := S25000x64) ![0, 0] S25000x64.size inb_S25000x64_S25000x64_0_0

/-- The output block after the body, from the two input blocks: its one store, over the whole block, of the product
    of the loaded blocks. -/
def out0_2 (x0 : Vec F S25000x32 .f32) (x1 : Vec F S32x64 .f32) : Vec F S25000x64 .f32 :=
  View.canon [⟨rO, k0_pay1 (View.ld x0 rX) (View.ld x1 rW)⟩]

/-- The one store covers the block. -/
theorem cover0_2 (p0 : Vec F S25000x64 .f32) (y : S25000x64.Idx) :
    ∃ pc ∈ ([⟨rO, p0⟩] : List (View.Piece (Elt F) S25000x64 .f32)), y ∈ pc.1.set :=
  View.cover_of_tiled [⟨rO, p0⟩] S25000x64.size (by rfl) y

set_option maxHeartbeats 1000000 in
/-- The body on whole staging memrefs — the inputs' at contents `x0`, `x1`, the output's at anything — runs to the
    continuation with the inputs' as they were and the output's at `out0_2 x0 x1`. -/
theorem sound_kernel (c : Dev nD) (E : Set ℕ) (i : grid0.Coords)
    (arg1 : Memref sig .tc .vmem S25000x32 .f32) (harg1 : arg1.IsWhole) (arg2 : Memref sig .tc .vmem S32x64 .f32) (harg2 : arg2.IsWhole)
    (arg3 : Memref sig .tc .vmem S25000x64 .f32) (harg3 : arg3.IsWhole)
    (x0 : Vec F S25000x32 .f32) (x1 : Vec F S32x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer at its block and the output's
    at the product of the two input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option maxHeartbeats 4000000 in
set_option backward.isDefEq.respectTransparency.types false in
/-- Every weakly fair execution of @main terminates, nothing faulting, and every final state has the region's arrays
    at what the proof data give and every other unscoped buffer as the later lines leave it. -/
theorem run_main : θ_run defs (onTc (τ := τ) (main (F := F))) (s₀ m ρ) (Pipeline.FramePost cfgs (dats m) 0 (W m (dats m))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hΦ := fun _ _ => rfl)

/-- The run's post read at the argument arrays: each ends as launched. The row-block operand is an array of the
    region that no point writes back; the other four bypass the region and no later line writes them. -/
theorem args_kept (r : PUnit × MemSt nD τ sig (Elt F)) (h : Pipeline.FramePost cfgs (dats m) 0 (W m (dats m)) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   (((h c).1 0).trans (((dats m 0 c).arrAt_in 0 rfl _).trans (A_eq m c 0))).trans (V_main_arg3 m c),
   ((h c).2 main_arg4 (Pipeline.mem_restRefs_of main_arg4 (by decide) (by decide))).trans (W_main_arg4 m (dats m) c)⟩

/-- THE FRAME: @main runs to the end, nothing faulting, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.KernelIdeal.Fr

end
-- ==== Proof.RefOps.lean ====
/- The 89 host operations that follow the first two of the reference's @main, as five lists in program order:
   the index rows and columns gathered and joined, the lexicographic sort's four lines, the 38 lines from the
   sort's permutation to the segment flags, the prefix sum's three lines, and the 33 lines that scatter. The
   two printed programs spell these operations with the same words, each over its own buffers and facts. -/
import proofs.«103443_j23416161698498_1_alg».proof.ReferenceIdeal
import proofs.«103443_j23416161698498_1_alg».proof.Proof.Gen.ReferenceIdeal
import Idealize.ShloMosaic.Lib.StableHlo.Run

noncomputable section

namespace Cert.ReferenceIdeal.Ops

open Idealize.ShloMosaic Idealize.ShloMosaic.TcCoe Idealize.SL.Sem
open Cert.ReferenceIdeal Cert.ReferenceIdeal.Facts₀ Cert.ReferenceIdeal.Facts

variable {F : FTy → Type} [FloatOps F]

/-- 11 host operations of @main, in order. -/
abbrev hostOps1 : List (HloOp τ sig (Elt F)) :=
  [ StableHlo.unary main_arg0 main_v2 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v2 main_v3 rfl shapeCasts_S1x500000_S500000,
    StableHlo.unary main_arg2 main_v4 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v4 main_v5 rfl shapeCasts_S1x1000000_S1000000,
    StableHlo.binary main_v3 main_v5 main_v6 ((fun a b => concatenate S1500000 0 [⟨S500000, a⟩, ⟨S1000000, b⟩] concatenates_S500000_S1000000_S1500000_d0) : (⟨S500000, .i32⟩ : BufTy).Contents (Elt F) → (⟨S1000000, .i32⟩ : BufTy).Contents (Elt F) → (⟨S1500000, .i32⟩ : BufTy).Contents (Elt F)),
    StableHlo.unary main_arg0 main_v7 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v7 main_v8 rfl shapeCasts_S1x500000_S500000,
    StableHlo.unary main_arg2 main_v9 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v9 main_v10 rfl shapeCasts_S1x1000000_S1000000,
    StableHlo.binary main_v8 main_v10 main_v11 ((fun a b => concatenate S1500000 0 [⟨S500000, a⟩, ⟨S1000000, b⟩] concatenates_S500000_S1000000_S1500000_d0) : (⟨S500000, .i32⟩ : BufTy).Contents (Elt F) → (⟨S1000000, .i32⟩ : BufTy).Contents (Elt F) → (⟨S1500000, .i32⟩ : BufTy).Contents (Elt F)),
    StableHlo.binary main_arg1 main_v1 main_v12 ((fun a b => concatenate S1500000x64 0 [⟨S500000x64, a⟩, ⟨S1000000x64, b⟩] concatenates_S500000x64_S1000000x64_S1500000x64_d0) : (⟨S500000x64, .f32⟩ : BufTy).Contents (Elt F) → (⟨S1000000x64, .f32⟩ : BufTy).Contents (Elt F) → (⟨S1500000x64, .f32⟩ : BufTy).Contents (Elt F)) ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub ..⟩
/-- 4 host operations of @lexsort (main_call0), in order. -/
abbrev hostOps1_1 : List (HloOp τ sig (Elt F)) :=
  [ StableHlo.TRef.nullary (.of main_call0_v0 : StableHlo.TRef sig ⟨S1500000, .i32⟩) (iotaInDim S1500000 32 0),
    StableHlo.TRef.ternary (.of main_v6 : StableHlo.TRef sig ⟨S1500000, .i32⟩) (.of main_v11 : StableHlo.TRef sig ⟨S1500000, .i32⟩) (.of main_call0_v0 : StableHlo.TRef sig ⟨S1500000, .i32⟩) (.of main_call0_v1_0 : StableHlo.TRef sig ⟨S1500000, .i32⟩) (fun x y z => (Host.sort3 S1500000 0 comparator_i32_i32_i32_d0 x y z).1),
    StableHlo.TRef.ternary (.of main_v6 : StableHlo.TRef sig ⟨S1500000, .i32⟩) (.of main_v11 : StableHlo.TRef sig ⟨S1500000, .i32⟩) (.of main_call0_v0 : StableHlo.TRef sig ⟨S1500000, .i32⟩) (.of main_call0_v1_1 : StableHlo.TRef sig ⟨S1500000, .i32⟩) (fun x y z => (Host.sort3 S1500000 0 comparator_i32_i32_i32_d0 x y z).2.1),
    StableHlo.TRef.ternary (.of main_v6 : StableHlo.TRef sig ⟨S1500000, .i32⟩) (.of main_v11 : StableHlo.TRef sig ⟨S1500000, .i32⟩) (.of main_call0_v0 : StableHlo.TRef sig ⟨S1500000, .i32⟩) (.of main_v13 : StableHlo.TRef sig ⟨S1500000, .i32⟩) (fun x y z => (Host.sort3 S1500000 0 comparator_i32_i32_i32_d0 x y z).2.2) ]
/-- Each touches TensorCore references only (`HostSeg.ofOps` over `StableHlo.tcRefs`, or a subset by `sub_ucRefs`). -/
theorem hostOps1_1_sub : (hostOps1_1 : List (HloOp τ sig (Elt F))).Forall fun op => op.bufs ⊆ StableHlo.tcRefs τ sig :=
  ⟨StableHlo.nullary_bufs_sub .., StableHlo.ternary_bufs_sub .., StableHlo.ternary_bufs_sub .., StableHlo.ternary_bufs_sub ..⟩
/-- 38 host operations of @main, in order. -/
abbrev hostOps1_2 : List (HloOp τ sig (Elt F)) :=
  ( StableHlo.nullary main_c (constantI S_ 32 0#32)
  :: StableHlo.unary main_c main_v14 (broadcastInDim S1500000 ![] bcast_S_S1500000 : (⟨S_, .i32⟩ : BufTy).Contents (Elt F) → (⟨S1500000, .i32⟩ : BufTy).Contents (Elt F))
  :: StableHlo.binary main_v13 main_v14 main_v15 (cmpi .slt : (⟨S1500000, .i32⟩ : BufTy).Contents (Elt F) → (⟨S1500000, .i32⟩ : BufTy).Contents (Elt F) → (⟨S1500000, .i1⟩ : BufTy).Contents (Elt F))
  :: StableHlo.nullary main_c_0 (constantI S_ 32 1500000#32)
  :: StableHlo.unary main_c_0 main_v16 (broadcastInDim S1500000 ![] bcast_S_S1500000 : (⟨S_, .i32⟩ : BufTy).Contents (Elt F) → (⟨S1500000, .i32⟩ : BufTy).Contents (Elt F))
  :: StableHlo.binary main_v13 main_v16 main_v17 (addi : (⟨S1500000, .i32⟩ : BufTy).Contents (Elt F) → (⟨S1500000, .i32⟩ : BufTy).Contents (Elt F) → (⟨S1500000, .i32⟩ : BufTy).Contents (Elt F))
  :: StableHlo.ternary main_v15 main_v17 main_v13 main_v18 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F))
  :: StableHlo.unary main_v18 main_v19 (broadcastInDim S1500000x1 ![0] bcast_S1500000_S1500000x1_0 : (⟨S1500000, .i32⟩ : BufTy).Contents (Elt F) → (⟨S1500000x1, .i32⟩ : BufTy).Contents (Elt F))
  :: StableHlo.binary main_v6 main_v19 main_v20 ((fun x i => Host.gather gather_S1500000_S1500000x1_S1500000_n_0_n_n_0_1_1 x i) : (⟨S1500000, .i32⟩ : BufTy).Contents (Elt F) → (⟨S1500000x1, .i32⟩ : BufTy).Contents (Elt F) → (⟨S1500000, .i32⟩ : BufTy).Contents (Elt F))
  :: StableHlo.nullary main_c_1 (constantI S_ 32 0#32)
  :: StableHlo.unary main_c_1 main_v21 (broadcastInDim S1500000 ![] bcast_S_S1500000 : (⟨S_, .i32⟩ : BufTy).Contents (Elt F) → (⟨S1500000, .i32⟩ : BufTy).Contents (Elt F))
  :: StableHlo.binary main_v13 main_v21 main_v22 (cmpi .slt : (⟨S1500000, .i32⟩ : BufTy).Contents (Elt F) → (⟨S1500000, .i32⟩ : BufTy).Contents (Elt F) → (⟨S1500000, .i1⟩ : BufTy).Contents (Elt F))
  :: StableHlo.nullary main_c_2 (constantI S_ 32 1500000#32)
  :: StableHlo.unary main_c_2 main_v23 (broadcastInDim S1500000 ![] bcast_S_S1500000 : (⟨S_, .i32⟩ : BufTy).Contents (Elt F) → (⟨S1500000, .i32⟩ : BufTy).Contents (Elt F))
  :: StableHlo.binary main_v13 main_v23 main_v24 (addi : (⟨S1500000, .i32⟩ : BufTy).Contents (Elt F) → (⟨S1500000, .i32⟩ : BufTy).Contents (Elt F) → (⟨S1500000, .i32⟩ : BufTy).Contents (Elt F))
  :: StableHlo.ternary main_v22 main_v24 main_v13 main_v25 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F))
  :: StableHlo.unary main_v25 main_v26 (broadcastInDim S1500000x1 ![0] bcast_S1500000_S1500000x1_0 : (⟨S1500000, .i32⟩ : BufTy).Contents (Elt F) → (⟨S1500000x1, .i32⟩ : BufTy).Contents (Elt F))
  :: StableHlo.binary main_v11 main_v26 main_v27 ((fun x i => Host.gather gather_S1500000_S1500000x1_S1500000_n_0_n_n_0_1_1 x i) : (⟨S1500000, .i32⟩ : BufTy).Contents (Elt F) → (⟨S1500000x1, .i32⟩ : BufTy).Contents (Elt F) → (⟨S1500000, .i32⟩ : BufTy).Contents (Elt F))
  :: StableHlo.nullary main_c_3 (constantI S_ 32 0#32)
  :: StableHlo.unary main_c_3 main_v28 (broadcastInDim S1500000 ![] bcast_S_S1500000 : (⟨S_, .i32⟩ : BufTy).Contents (Elt F) → (⟨S1500000, .i32⟩ : BufTy).Contents (Elt F))
  :: StableHlo.binary main_v13 main_v28 main_v29 (cmpi .slt : (⟨S1500000, .i32⟩ : BufTy).Contents (Elt F) → (⟨S1500000, .i32⟩ : BufTy).Contents (Elt F) → (⟨S1500000, .i1⟩ : BufTy).Contents (Elt F))
  :: StableHlo.nullary main_c_4 (constantI S_ 32 1500000#32)
  :: StableHlo.unary main_c_4 main_v30 (broadcastInDim S1500000 ![] bcast_S_S1500000 : (⟨S_, .i32⟩ : BufTy).Contents (Elt F) → (⟨S1500000, .i32⟩ : BufTy).Contents (Elt F))
  :: StableHlo.binary main_v13 main_v30 main_v31 (addi : (⟨S1500000, .i32⟩ : BufTy).Contents (Elt F) → (⟨S1500000, .i32⟩ : BufTy).Contents (Elt F) → (⟨S1500000, .i32⟩ : BufTy).Contents (Elt F))
  :: StableHlo.ternary main_v29 main_v31 main_v13 main_v32 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F))
  :: StableHlo.unary main_v32 main_v33 (broadcastInDim S1500000x1 ![0] bcast_S1500000_S1500000x1_0 : (⟨S1500000, .i32⟩ : BufTy).Contents (Elt F) → (⟨S1500000x1, .i32⟩ : BufTy).Contents (Elt F))
  :: StableHlo.binary main_v12 main_v33 main_v34 ((fun x i => Host.gather gather_S1500000x64_S1500000x1_S1500000x64_1_0_n_n_0_1_164 x i) : (⟨S1500000x64, .f32⟩ : BufTy).Contents (Elt F) → (⟨S1500000x1, .i32⟩ : BufTy).Contents (Elt F) → (⟨S1500000x64, .f32⟩ : BufTy).Contents (Elt F))
  :: StableHlo.nullary main_c_5 (constantI S_ 1 1#1)
  :: StableHlo.unary main_c_5 main_v35 (broadcastInDim S1 ![] bcast_S_S1 : (⟨S_, .i1⟩ : BufTy).Contents (Elt F) → (⟨S1, .i1⟩ : BufTy).Contents (Elt F))
  :: StableHlo.unary main_v20 main_v36 ((extractStridedSlice S1499999 ![1] · slices_S1500000_S1499999_1) : (⟨S1500000, .i32⟩ : BufTy).Contents (Elt F) → (⟨S1499999, .i32⟩ : BufTy).Contents (Elt F))
  :: StableHlo.unary main_v20 main_v37 ((extractStridedSlice S1499999 ![0] · slices_S1500000_S1499999_0) : (⟨S1500000, .i32⟩ : BufTy).Contents (Elt F) → (⟨S1499999, .i32⟩ : BufTy).Contents (Elt F))
  :: StableHlo.binary main_v36 main_v37 main_v38 (cmpi .ne : (⟨S1499999, .i32⟩ : BufTy).Contents (Elt F) → (⟨S1499999, .i32⟩ : BufTy).Contents (Elt F) → (⟨S1499999, .i1⟩ : BufTy).Contents (Elt F))
  :: StableHlo.unary main_v27 main_v39 ((extractStridedSlice S1499999 ![1] · slices_S1500000_S1499999_1) : (⟨S1500000, .i32⟩ : BufTy).Contents (Elt F) → (⟨S1499999, .i32⟩ : BufTy).Contents (Elt F))
  :: StableHlo.unary main_v27 main_v40 ((extractStridedSlice S1499999 ![0] · slices_S1500000_S1499999_0) : (⟨S1500000, .i32⟩ : BufTy).Contents (Elt F) → (⟨S1499999, .i32⟩ : BufTy).Contents (Elt F))
  :: StableHlo.binary main_v39 main_v40 main_v41 (cmpi .ne : (⟨S1499999, .i32⟩ : BufTy).Contents (Elt F) → (⟨S1499999, .i32⟩ : BufTy).Contents (Elt F) → (⟨S1499999, .i1⟩ : BufTy).Contents (Elt F))
  :: StableHlo.binary main_v38 main_v41 main_v42 (ori : (⟨S1499999, .i1⟩ : BufTy).Contents (Elt F) → (⟨S1499999, .i1⟩ : BufTy).Contents (Elt F) → (⟨S1499999, .i1⟩ : BufTy).Contents (Elt F))
  :: StableHlo.binary main_v35 main_v42 main_v43 ((fun a b => concatenate S1500000 0 [⟨S1, a⟩, ⟨S1499999, b⟩] concatenates_S1_S1499999_S1500000_d0) : (⟨S1, .i1⟩ : BufTy).Contents (Elt F) → (⟨S1499999, .i1⟩ : BufTy).Contents (Elt F) → (⟨S1500000, .i1⟩ : BufTy).Contents (Elt F))
  :: StableHlo.unary main_v43 main_v44 ((extui 32 · natLt_1_32) : (⟨S1500000, .i1⟩ : BufTy).Contents (Elt F) → (⟨S1500000, .i32⟩ : BufTy).Contents (Elt F))
  :: [] )
/-- Each touches TensorCore references only (`HostSeg.ofOps` over `StableHlo.tcRefs`, or a subset by `sub_ucRefs`). -/
theorem hostOps1_2_sub : (hostOps1_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub ..⟩
/-- 3 host operations of @cumsum (main_call1), in order. -/
abbrev hostOps1_3 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v44 : StableHlo.TRef sig ⟨S1500000, .i32⟩) (.of main_call1_call0_v0 : StableHlo.TRef sig ⟨S_, .i32⟩) (.of main_v45 : StableHlo.TRef sig ⟨S1500000, .i32⟩) (fun x v => Host.reduceWindow IntOp.addi ![1500000] ![1] ![1499999] ![0] x v reduceWindows_S1500000_S1500000_w1500000s1p1499999_0 h_S_) ]
/-- Each touches TensorCore references only (`HostSeg.ofOps` over `StableHlo.tcRefs`, or a subset by `sub_ucRefs`). -/
theorem hostOps1_3_sub : (hostOps1_3 : List (HloOp τ sig (Elt F))).Forall fun op => op.bufs ⊆ StableHlo.tcRefs τ sig :=
  ⟨StableHlo.nullary_bufs_sub .., StableHlo.unary_bufs_sub .., StableHlo.binary_bufs_sub ..⟩
/-- 33 host operations of @main, in order. -/
abbrev hostOps1_4 : List (HloOp τ sig (Elt F)) :=
  ( StableHlo.nullary main_c_6 (constantI S_ 32 1#32)
  :: StableHlo.unary main_c_6 main_v46 (broadcastInDim S1500000 ![] bcast_S_S1500000 : (⟨S_, .i32⟩ : BufTy).Contents (Elt F) → (⟨S1500000, .i32⟩ : BufTy).Contents (Elt F))
  :: StableHlo.binary main_v45 main_v46 main_v47 (subi : (⟨S1500000, .i32⟩ : BufTy).Contents (Elt F) → (⟨S1500000, .i32⟩ : BufTy).Contents (Elt F) → (⟨S1500000, .i32⟩ : BufTy).Contents (Elt F))
  :: StableHlo.nullary main_cst (constant S_ .f32 0x00000000#32)
  :: StableHlo.unary main_cst main_v48 (broadcastInDim S1500000x64 ![] bcast_S_S1500000x64 : (⟨S_, .f32⟩ : BufTy).Contents (Elt F) → (⟨S1500000x64, .f32⟩ : BufTy).Contents (Elt F))
  :: StableHlo.unary main_v47 main_v49 (broadcastInDim S1500000x1 ![0] bcast_S1500000_S1500000x1_0 : (⟨S1500000, .i32⟩ : BufTy).Contents (Elt F) → (⟨S1500000x1, .i32⟩ : BufTy).Contents (Elt F))
  :: StableHlo.ternary main_v48 main_v49 main_v34 main_v50 ((fun x i u => Host.scatterAdd scatter_S1500000x64_S1500000x1_S1500000x64_1_0_0_1 x i u) : (⟨S1500000x64, .f32⟩ : BufTy).Contents (Elt F) → (⟨S1500000x1, .i32⟩ : BufTy).Contents (Elt F) → (⟨S1500000x64, .f32⟩ : BufTy).Contents (Elt F) → (⟨S1500000x64, .f32⟩ : BufTy).Contents (Elt F))
  :: StableHlo.nullary main_c_7 (constantI S_ 32 4294967295#32)
  :: StableHlo.unary main_c_7 main_v51 (broadcastInDim S1500000 ![] bcast_S_S1500000 : (⟨S_, .i32⟩ : BufTy).Contents (Elt F) → (⟨S1500000, .i32⟩ : BufTy).Contents (Elt F))
  :: StableHlo.nullary main_c_8 (constantI S_ 32 0#32)
  :: StableHlo.unary main_c_8 main_v52 (broadcastInDim S1500000 ![] bcast_S_S1500000 : (⟨S_, .i32⟩ : BufTy).Contents (Elt F) → (⟨S1500000, .i32⟩ : BufTy).Contents (Elt F))
  :: StableHlo.binary main_v47 main_v52 main_v53 (cmpi .slt : (⟨S1500000, .i32⟩ : BufTy).Contents (Elt F) → (⟨S1500000, .i32⟩ : BufTy).Contents (Elt F) → (⟨S1500000, .i1⟩ : BufTy).Contents (Elt F))
  :: StableHlo.nullary main_c_9 (constantI S_ 32 1500000#32)
  :: StableHlo.unary main_c_9 main_v54 (broadcastInDim S1500000 ![] bcast_S_S1500000 : (⟨S_, .i32⟩ : BufTy).Contents (Elt F) → (⟨S1500000, .i32⟩ : BufTy).Contents (Elt F))
  :: StableHlo.binary main_v47 main_v54 main_v55 (addi : (⟨S1500000, .i32⟩ : BufTy).Contents (Elt F) → (⟨S1500000, .i32⟩ : BufTy).Contents (Elt F) → (⟨S1500000, .i32⟩ : BufTy).Contents (Elt F))
  :: StableHlo.ternary main_v53 main_v55 main_v47 main_v56 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F))
  :: StableHlo.unary main_v56 main_v57 (broadcastInDim S1500000x1 ![0] bcast_S1500000_S1500000x1_0 : (⟨S1500000, .i32⟩ : BufTy).Contents (Elt F) → (⟨S1500000x1, .i32⟩ : BufTy).Contents (Elt F))
  :: StableHlo.ternary main_v51 main_v57 main_v20 main_v58 ((fun x i u => Host.scatter scatter_S1500000_S1500000x1_S1500000_n_0_0_1 (fun _ b => b) x i u) : (⟨S1500000, .i32⟩ : BufTy).Contents (Elt F) → (⟨S1500000x1, .i32⟩ : BufTy).Contents (Elt F) → (⟨S1500000, .i32⟩ : BufTy).Contents (Elt F) → (⟨S1500000, .i32⟩ : BufTy).Contents (Elt F))
  :: StableHlo.nullary main_c_10 (constantI S_ 32 4294967295#32)
  :: StableHlo.unary main_c_10 main_v59 (broadcastInDim S1500000 ![] bcast_S_S1500000 : (⟨S_, .i32⟩ : BufTy).Contents (Elt F) → (⟨S1500000, .i32⟩ : BufTy).Contents (Elt F))
  :: StableHlo.nullary main_c_11 (constantI S_ 32 0#32)
  :: StableHlo.unary main_c_11 main_v60 (broadcastInDim S1500000 ![] bcast_S_S1500000 : (⟨S_, .i32⟩ : BufTy).Contents (Elt F) → (⟨S1500000, .i32⟩ : BufTy).Contents (Elt F))
  :: StableHlo.binary main_v47 main_v60 main_v61 (cmpi .slt : (⟨S1500000, .i32⟩ : BufTy).Contents (Elt F) → (⟨S1500000, .i32⟩ : BufTy).Contents (Elt F) → (⟨S1500000, .i1⟩ : BufTy).Contents (Elt F))
  :: StableHlo.nullary main_c_12 (constantI S_ 32 1500000#32)
  :: StableHlo.unary main_c_12 main_v62 (broadcastInDim S1500000 ![] bcast_S_S1500000 : (⟨S_, .i32⟩ : BufTy).Contents (Elt F) → (⟨S1500000, .i32⟩ : BufTy).Contents (Elt F))
  :: StableHlo.binary main_v47 main_v62 main_v63 (addi : (⟨S1500000, .i32⟩ : BufTy).Contents (Elt F) → (⟨S1500000, .i32⟩ : BufTy).Contents (Elt F) → (⟨S1500000, .i32⟩ : BufTy).Contents (Elt F))
  :: StableHlo.ternary main_v61 main_v63 main_v47 main_v64 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F))
  :: StableHlo.unary main_v64 main_v65 (broadcastInDim S1500000x1 ![0] bcast_S1500000_S1500000x1_0 : (⟨S1500000, .i32⟩ : BufTy).Contents (Elt F) → (⟨S1500000x1, .i32⟩ : BufTy).Contents (Elt F))
  :: StableHlo.ternary main_v59 main_v65 main_v27 main_v66 ((fun x i u => Host.scatter scatter_S1500000_S1500000x1_S1500000_n_0_0_1 (fun _ b => b) x i u) : (⟨S1500000, .i32⟩ : BufTy).Contents (Elt F) → (⟨S1500000x1, .i32⟩ : BufTy).Contents (Elt F) → (⟨S1500000, .i32⟩ : BufTy).Contents (Elt F) → (⟨S1500000, .i32⟩ : BufTy).Contents (Elt F))
  :: StableHlo.unary main_v47 main_v67 ((extractStridedSlice S1 ![1499999] · slices_S1500000_S1_1499999) : (⟨S1500000, .i32⟩ : BufTy).Contents (Elt F) → (⟨S1, .i32⟩ : BufTy).Contents (Elt F))
  :: StableHlo.reshape main_v67 main_v68 rfl shapeCasts_S1_S_
  :: StableHlo.nullary main_c_13 (constantI S_ 32 1#32)
  :: StableHlo.binary main_v68 main_c_13 main_v69 (addi : (⟨S_, .i32⟩ : BufTy).Contents (Elt F) → (⟨S_, .i32⟩ : BufTy).Contents (Elt F) → (⟨S_, .i32⟩ : BufTy).Contents (Elt F))
  :: [] )
/-- Each touches TensorCore references only (`HostSeg.ofOps` over `StableHlo.tcRefs`, or a subset by `sub_ucRefs`). -/
theorem hostOps1_4_sub : (hostOps1_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.reshape_bufs_sub .., StableHlo.nullary_bufs_sub .., StableHlo.binary_bufs_sub ..⟩

end Cert.ReferenceIdeal.Ops

end
-- ==== Proof.RefRun.lean ====
/-
  The reference's run. Its @main is a straight line of 91 host operations — the weight matrix transposed, ONE
  matrix product of the 1000000×32 operand with it, and then the same 89 lines as the kernel's program — the two
  called functions (the lexicographic sort; the prefix sum, itself calling the windowed reduction) unfolded at their
  calls over the calls' own buffers. So every weakly fair execution terminates with each buffer at the fold of the
  lines' results over the launch contents; no line writes an argument array.
-/
import proofs.«103443_j23416161698498_1_alg».proof.Proof.RefOps
import Idealize.ShloMosaic.Lib.StableHlo.Run
import Idealize.ShloMosaic.Lib.Pipeline.Regions

set_option maxRecDepth 16384

noncomputable section

namespace Cert.ReferenceIdeal.Ops

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-- The first two lines: the transposition and the matrix product. -/
abbrev headOps : List (HloOp τ sig (Elt F)) :=
  [ StableHlo.unary main_arg4 main_v0 ((transpose S32x64 [1, 0] · transposes_S64x32_S32x64_1_0) : (⟨S64x32, .f32⟩ : BufTy).Contents (Elt F) → (⟨S32x64, .f32⟩ : BufTy).Contents (Elt F)),
    StableHlo.binary main_arg3 main_v0 main_v1 ((fun l r => Host.dotGeneral dot_S1000000x32_S32x64_S1000000x64_1_0_0_1_n_n none l r) : (⟨S1000000x32, .f32⟩ : BufTy).Contents (Elt F) → (⟨S32x64, .f32⟩ : BufTy).Contents (Elt F) → (⟨S1000000x64, .f32⟩ : BufTy).Contents (Elt F)) ]

theorem headOps_sub : (headOps : List (HloOp τ sig (Elt F))).Forall fun op => op.bufs ⊆ StableHlo.tcRefs τ sig :=
  ⟨StableHlo.unary_bufs_sub .., StableHlo.binary_bufs_sub ..⟩

/-- The 89 later lines, in order. -/
abbrev tailOps : List (HloOp τ sig (Elt F)) := hostOps1 ++ (hostOps1_1 ++ (hostOps1_2 ++ (hostOps1_3 ++ hostOps1_4)))

/-- All 91 lines. -/
abbrev ops : List (HloOp τ sig (Elt F)) := headOps ++ tailOps

/-- @main is that straight line: the called functions unfold at their calls, the records at their fields, and the
    two windows of statements join. -/
theorem main_eq (c : Dev nD) : main (F := F) c = seq ops := by
  chain_rfl

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

theorem ops_sub : (ops : List (HloOp τ sig (Elt F))).Forall fun op => op.bufs ⊆ StableHlo.tcRefs τ sig :=
  forall_append headOps_sub (forall_append hostOps1_sub (forall_append hostOps1_1_sub (forall_append hostOps1_2_sub
    (forall_append hostOps1_3_sub hostOps1_4_sub))))

theorem scopedRefs_eq : (Finset.univ.filter fun b : Ref sig .tc => b.isScoped) = ∅ := by decide
theorem scopedSems_eq : (Finset.univ.filter fun sm : SemLoc sig => sm.isScoped .tc) = ∅ := by decide

/-- No line allocates. -/
theorem ops_fresh : ∀ op ∈ (ops : List (HloOp τ sig (Elt F))), op.fresh = ∅ := by
  refine List.forall_iff_forall_mem.mp ?_
  simp only [ops, headOps, tailOps, hostOps1, hostOps1_1, hostOps1_2, hostOps1_3, hostOps1_4, List.cons_append, List.nil_append, List.append_nil, List.Forall]
  repeat' constructor

/-- Every weakly fair execution of the reference's @main terminates, and every final state has each buffer at the
    fold of the 91 lines' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- Which buffer each line writes, decided line by line. -/
local macro "no_line_writes" : tactic => `(tactic| (
  refine List.forall_iff_forall_mem.mp ?_
  simp only [ops, headOps, tailOps, hostOps1, hostOps1_1, hostOps1_2, hostOps1_3, hostOps1_4, List.cons_append, List.nil_append, List.append_nil,
    List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem keeps_arg0 : ∀ op ∈ (ops : List (HloOp τ sig (Elt F))), Proc.devRef (τ := τ) .tc main_arg0 ∉ op.writes := by no_line_writes
theorem keeps_arg1 : ∀ op ∈ (ops : List (HloOp τ sig (Elt F))), Proc.devRef (τ := τ) .tc main_arg1 ∉ op.writes := by no_line_writes
theorem keeps_arg2 : ∀ op ∈ (ops : List (HloOp τ sig (Elt F))), Proc.devRef (τ := τ) .tc main_arg2 ∉ op.writes := by no_line_writes
theorem keeps_arg3 : ∀ op ∈ (ops : List (HloOp τ sig (Elt F))), Proc.devRef (τ := τ) .tc main_arg3 ∉ op.writes := by no_line_writes
theorem keeps_arg4 : ∀ op ∈ (ops : List (HloOp τ sig (Elt F))), Proc.devRef (τ := τ) .tc main_arg4 ∉ op.writes := by no_line_writes

/-- The run's post read at the argument arrays: each ends as launched. -/
theorem args_kept (m : (ℓ : Loc nD τ sig) → Buf (Elt F) ℓ) (r : PUnit × MemSt nD τ sig (Elt F))
    (h : ∀ (c : Dev nD) (b : Ref sig .tc), r.2.mem ((c.tc : Thread nD τ).loc b) = after ops (launchContents m c) (Proc.devRef .tc b)) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c main_arg0).trans (after_of_forall_not_mem _ _ keeps_arg0),
   (h c main_arg1).trans (after_of_forall_not_mem _ _ keeps_arg1),
   (h c main_arg2).trans (after_of_forall_not_mem _ _ keeps_arg2),
   (h c main_arg3).trans (after_of_forall_not_mem _ _ keeps_arg3),
   (h c main_arg4).trans (after_of_forall_not_mem _ _ keeps_arg4)⟩

/-- THE FRAME of the reference: it runs to the end, nothing faulting, and the argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.ReferenceIdeal.Ops

end
-- ==== Proof.LibMatmul2.lean ====
/-
  A rank-2 matrix product's contraction, read over the contracted extent.

  For dimension numbers over shapes [M, K] × [K, N] → [M, N] that contract the left operand's second axis with the
  right operand's first, the contraction index has one axis of extent K, and at an output index j and contraction
  position q the left operand is read at (j₀, q) and the right one at (q, j₁). So the sum over the contraction index
  of the operands' products is the sum over q < K of l (j₀, q) · r (q, j₁). The four coordinate facts are taken as
  hypotheses (for a record with literal dimension lists each is decided by computation), so the lemma serves any such
  record: a kernel's matrix unit product into a zero accumulator and the host's dot product alike, at the ideal values.
-/
import Idealize.ShloMosaic.Lib.ValueIdx
import Idealize.ShloMosaic.PureOps.Ideal.Laws

noncomputable section

open scoped BigOperators

namespace Cert.LibMatmul2

open Idealize.ShloMosaic Idealize.ShloMosaic.ValueIdx

/-- The product of an [M, K] array with a [K, N] array over the extended reals, index by index:
    entry (a, b) is the sum over q < K of l (a, q) · r (q, b). -/
def mm {M K N : Nat} (l : (⟨2, ![M, K]⟩ : Shape).Idx → EReal) (r : (⟨2, ![K, N]⟩ : Shape).Idx → EReal) :
    (⟨2, ![M, N]⟩ : Shape).Idx → EReal :=
  fun j => ∑ q : Fin K, l (ix2 (n0 := M) (n1 := K) (j 0) q) * r (ix2 (n0 := K) (n1 := N) q (j 1))

/-- The contraction sum of a [M, K] × [K, N] product at output index `j`, over `q < K`. -/
theorem sum_contr {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (l : FVec Ideal (⟨2, ![M, K]⟩ : Shape) φ₁) (r : FVec Ideal (⟨2, ![K, N]⟩ : Shape) φ₂) (j : (⟨2, ![M, N]⟩ : Shape).Idx) :
    ∑ k : D.contr.Idx, l (D.lhsIdx j k) * r (D.rhsIdx j k)
      = ∑ q : Fin K, l (ix2 (n0 := M) (n1 := K) (j 0) q) * r (ix2 (n0 := K) (n1 := N) q (j 1)) := by
  rw [← Equiv.sum_comp (contrEquiv1 D K hr hs).symm]
  refine Finset.sum_congr rfl fun q _ => ?_
  have hq : (((contrEquiv1 D K hr hs).symm q) ⟨0, by omega⟩ : ℕ) = q.val := contrEquiv1_symm_val D K hr hs q
  have el : D.lhsIdx j ((contrEquiv1 D K hr hs).symm q) = ix2 (n0 := M) (n1 := K) (j 0) q := by
    funext a; apply Fin.ext
    match a with
    | ⟨0, _⟩ => exact hl0 _ _
    | ⟨1, _⟩ => exact (hl1 _ _).trans hq
  have er : D.rhsIdx j ((contrEquiv1 D K hr hs).symm q) = ix2 (n0 := K) (n1 := N) q (j 1) := by
    funext a; apply Fin.ext
    match a with
    | ⟨0, _⟩ => exact (hr0 _ _).trans hq
    | ⟨1, _⟩ => exact hr1 _ _
  rw [el, er]

/-- The host's dot product at the ideal values, read at an index. -/
theorem dotGeneral_apply2 {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral D prec sched l r j = mm l r j :=
  (Ideal.dotGeneral_apply D prec sched l r j).trans (sum_contr D hr hs hl0 hl1 hr0 hr1 l r j)

/-- The matrix unit's product into the zero accumulator at the ideal values, read at an index. -/
theorem matmul_zero_apply2 {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul D prec l r (constant (⟨2, ![M, N]⟩ : Shape) .f32 0x00000000#32) j = mm l r j :=
  (Ideal.matmul_constant_zero_apply D prec l r j).trans (sum_contr D hr hs hl0 hl1 hr0 hr1 l r j)

end Cert.LibMatmul2

end
-- ==== Proof.ProjValue.lean ====
/-
  What the kernel region leaves in its result array, at the ideal values: row a, column b of the 1000000×64 array is
  the sum over q < 32 of x (a, q) · wᵀ (q, b), x the 1000000×32 operand and wᵀ the transposed 64×32 weight.

  At grid point t the body stores, over the whole 25000×64 output block, the matrix unit's product of the two loaded
  blocks into a zero accumulator; the narrowing of both operands to 16-bit floats is the identity on extended reals, so
  entry (p, b) of the block is the sum over q of xblock (p, q) · wblock (q, b). Block t of the operand is rows
  25000·t + p of x, the weight's block is all of wᵀ, and the output block is written back to rows 25000·t + p: entry
  (25000·t + p, b) of the product. The 40 blocks tile the 1000000 rows (row a lies in block a / 25000), so the array
  ends holding the whole product.
-/
import proofs.«103443_j23416161698498_1_alg».proof.Proof.FrameIdeal
import proofs.«103443_j23416161698498_1_alg».proof.Proof.LibMatmul2
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.LibMatmul2

variable (m : (ℓ : Loc nD τ sig) → Buf (Elt Ideal) ℓ)

theorem hz : (![0, 0] : Fin 2 → Nat) = fun _ => 0 := funext fun a => by fin_cases a <;> rfl

/-- The body's stored value at an entry of the block: the product of the two loaded blocks there. -/
theorem pay_apply (x : Vec Ideal S25000x32 .f32) (w : Vec Ideal S32x64 .f32) (y : S25000x64.Idx) :
    k0_pay1 (F := Ideal) x w y = mm (M := 25000) (K := 32) (N := 64) x w y := by
  unfold k0_pay1
  refine (matmul_zero_apply2 (M := 25000) (K := 32) (N := 64) dot_S25000x32_S32x64_S25000x64_1_0_0_1_n_n rfl rfl
    (fun _ _ => rfl) (fun _ _ => rfl) (fun _ _ => rfl) (fun _ _ => rfl) none _ _ y).trans ?_
  unfold mm
  refine Finset.sum_congr rfl fun q _ => ?_
  exact congrArg (x _ * ·) (congrFun (shapeCast_self w _) _)

/-- The printed index maps over the 40 grid points: the operand's and the result's row-block index is the point,
    their column-block index and both of the weight's are 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the operand and the transposed weight as the region
    finds them. -/
theorem flushed_eq (c : Dev nD) (t : Fin cfg0.N) :
    (dats m 0 c).flushed 2 t
      = ((cfg0.win 2).blk t).view.read (Elt Ideal) (mm (M := 1000000) (K := 32) (N := 64) (V m c main_arg3) (V m c main_v0)) := by
  show (cfg0.win 2).cut (grid0.coords t) ((dats m 0 c).after 2 t) = _
  rw [after0_2]
  unfold out0_2
  rw [View.canon_unit_zero hz]
  simp only [View.ld_unit_zero (S := S25000x32) hz, View.ld_unit_zero (S := S32x64) hz]
  obtain ⟨e0, e1, e2, e3, e4, e5⟩ := idx_facts t
  funext y
  refine (pay_apply _ _ y).trans ?_
  show mm (M := 25000) (K := 32) (N := 64) (iblk m c 0 t) (iblk m c 1 t) y
    = mm (M := 1000000) (K := 32) (N := 64) (V m c main_arg3) (V m c main_v0) (((cfg0.win 2).blk t).view.emb y)
  unfold mm
  refine Finset.sum_congr rfl fun q _ => ?_
  have hx : iblk m c 0 t (ix2 (n0 := 25000) (n1 := 32) (y 0) q)
      = V m c main_arg3 (ix2 (n0 := 1000000) (n1 := 32) ((((cfg0.win 2).blk t).view.emb y) 0) q) := by
    show V m c main_arg3 (((cfg0.win 0).blk t).view.emb (ix2 (n0 := 25000) (n1 := 32) (y 0) q)) = _
    refine congrArg _ (funext fun a => Fin.ext ?_)
    match a with
    | ⟨0, _⟩ => show win0_0.index t (0 : Fin 2) * 25000 + 1 * (y 0).val = win0_2.index t (0 : Fin 2) * 25000 + 1 * (y 0).val; omega
    | ⟨1, _⟩ => show win0_0.index t (1 : Fin 2) * 32 + 1 * q.val = q.val; omega
  have hw : iblk m c 1 t (ix2 (n0 := 32) (n1 := 64) q (y 1))
      = V m c main_v0 (ix2 (n0 := 32) (n1 := 64) q ((((cfg0.win 2).blk t).view.emb y) 1)) := by
    show V m c main_v0 (((cfg0.win 1).blk t).view.emb (ix2 (n0 := 32) (n1 := 64) q (y 1))) = _
    refine congrArg _ (funext fun a => Fin.ext ?_)
    match a with
    | ⟨0, _⟩ => show win0_1.index t (0 : Fin 2) * 32 + 1 * q.val = q.val; omega
    | ⟨1, _⟩ => show win0_1.index t (1 : Fin 2) * 64 + 1 * (y 1).val = win0_2.index t (1 : Fin 2) * 64 + 1 * (y 1).val; omega
  rw [hx, hw]

/-- An index of the result array is in point `t`'s block iff each coordinate is in the block's range on its axis. -/
theorem mem_blk (t : Fin cfg0.N) (i : S1000000x64.Idx) :
    i ∈ ((cfg0.win 2).blk t).view.set ↔ ∀ a : Fin 2, win0_2.index t a * S25000x64.size a ≤ (i a).val ∧ (i a).val < win0_2.index t a * S25000x64.size a + S25000x64.size a := by
  show i ∈ ((View.whole main_v1).slice (win0_2.rect t)).set ↔ _
  rw [View.set_slice_whole, Rect.mem_set_unit]
  exact Iff.rfl

/-- Every index of the result array is in some point's block: row a is in block a / 25000. -/
theorem cover (i : S1000000x64.Idx) : ∃ t : Fin cfg0.N, (cfg0.win 2).flush t = true ∧ i ∈ ((cfg0.win 2).blk t).view.set := by
  have hi0 : (i 0).val < 1000000 := (i 0).isLt
  have hi1 : (i 1).val < 64 := (i 1).isLt
  have hN : cfg0.N = 40 := N_0
  refine ⟨⟨(i 0).val / 25000, by omega⟩, flush0_2 _, ?_⟩
  obtain ⟨e0, e1, e2, e3, e4, e5⟩ := idx_facts ⟨(i 0).val / 25000, by omega⟩
  rw [mem_blk]
  intro a
  match a with
  | ⟨0, _⟩ =>
    show win0_2.index ⟨(i 0).val / 25000, _⟩ (0 : Fin 2) * 25000 ≤ (i 0).val ∧ (i 0).val < win0_2.index ⟨(i 0).val / 25000, _⟩ (0 : Fin 2) * 25000 + 25000
    rw [e4]; show (i 0).val / 25000 * 25000 ≤ (i 0).val ∧ (i 0).val < (i 0).val / 25000 * 25000 + 25000; omega
  | ⟨1, _⟩ =>
    show win0_2.index ⟨(i 0).val / 25000, _⟩ (1 : Fin 2) * 64 ≤ (i 1).val ∧ (i 1).val < win0_2.index ⟨(i 0).val / 25000, _⟩ (1 : Fin 2) * 64 + 64
    rw [e5]; omega

/-- The result array after the region: the product of the operand and the transposed weight as the region finds them. -/
theorem final (c : Dev nD) :
    (dats m 0 c).arrAt 2 cfg0.N = mm (M := 1000000) (K := 32) (N := 64) (V m c main_arg3) (V m c main_v0) :=
  (dats m 0 c).arrAt_eq_of_cover 2 _ (fun t _ => flushed_eq m c t) cover

/-- The region finds the transposed weight in its second operand. -/
theorem V_main_v0 (c : Dev nD) :
    (V m c main_v0 : S32x64.Idx → EReal) = transpose S32x64 [1, 0] (m ((c : Thread nD τ).loc main_arg4)) transposes_S64x32_S32x64_1_0 := by
  show StableHlo.after hostOps0 (fun b => m (c, b)) (Proc.devRef .tc main_v0) = _
  after_results

/-- The result array after the region, from the launch contents. -/
theorem final' (c : Dev nD) :
    (dats m 0 c).arrAt 2 cfg0.N = mm (M := 1000000) (K := 32) (N := 64) (m ((c : Thread nD τ).loc main_arg3))
      (transpose S32x64 [1, 0] (m ((c : Thread nD τ).loc main_arg4)) transposes_S64x32_S32x64_1_0) := by
  rw [final, V_main_arg3, V_main_v0]

end Cert.KernelIdeal.Val

end
-- ==== Proof.TailAgree.lean ====
/-
  The 89 host lines after the first two are the same in the two programs, each over its own buffers. Read as a
  function of what they find in the index arrays, the edge attributes and the projected attributes, they leave the same
  four results. Proved stretch by stretch, in program order:
    A (11 lines)  the first and second index rows of the two index arrays joined (v6, v11); the edge attributes
                  joined with the projected ones (v12);
    B (4 lines)   the permutation that sorts the pairs (v11, v6) lexicographically, stably (v13);
    C (38 lines)  rows, columns and attributes gathered along it (v20, v27, v34) and the flags "this pair differs from
                  the one before" as 32-bit words (v44);
    D (3 lines)   their running sum (v45);
    E (33 lines)  the segment ids (the running sum less one); the attributes summed per segment (v50), the first
                  row and column of each segment scattered over -1 (v58, v66), and the number of segments (v69).
  For each stretch: if the two memories agree on what the stretch reads, they agree afterwards on what it writes that
  is read later, and on what it only passes through. Each such fact is the stretch's lines read off one by one, the
  two sides then being the same operations of equal operands.
-/
import proofs.«103443_j23416161698498_1_alg».proof.Proof.Gen.KernelIdeal.Launch
import proofs.«103443_j23416161698498_1_alg».proof.Proof.RefRun
import Idealize.ShloMosaic.Lib.StableHlo.Run

set_option maxRecDepth 16384

noncomputable section

namespace Cert.TailAgree

open Idealize.ShloMosaic Idealize.ShloMosaic.TcCoe Idealize.SL.Sem Idealize.ShloMosaic.StableHlo

/-- The contents after two lists of lines run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {F : FTy → Type} [FloatOps F]
variable (VK : Valuation Cert.KernelIdeal.τ Cert.KernelIdeal.sig (Elt F)) (VR : Valuation Cert.ReferenceIdeal.τ Cert.ReferenceIdeal.sig (Elt F))

open Lean in
/-- The two memories hold the same contents in the buffer of this name. -/
local macro "at[" r:ident "]" : term =>
  `($(mkIdent `VK) (Proc.devRef (τ := Cert.KernelIdeal.τ) .tc $(mkIdent (`Cert.KernelIdeal ++ r.getId)))
     = $(mkIdent `VR) (Proc.devRef (τ := Cert.ReferenceIdeal.τ) .tc $(mkIdent (`Cert.ReferenceIdeal ++ r.getId))))

open Lean in
/-- After the stretch of this name they hold the same contents in the buffer of this name. -/
local macro "after[" l:ident "," r:ident "]" : term =>
  `(StableHlo.after $(mkIdent (`Cert.KernelIdeal.Gen ++ l.getId)) $(mkIdent `VK) (Proc.devRef (τ := Cert.KernelIdeal.τ) .tc $(mkIdent (`Cert.KernelIdeal ++ r.getId)))
     = StableHlo.after $(mkIdent (`Cert.ReferenceIdeal.Ops ++ l.getId)) $(mkIdent `VR) (Proc.devRef (τ := Cert.ReferenceIdeal.τ) .tc $(mkIdent (`Cert.ReferenceIdeal ++ r.getId))))

/-- Read the stretch's lines off at the buffer, on both sides; rewrite the operands that agree; the rest is the same
    operations. -/
local macro "lines_off" : tactic => `(tactic| (
  (try after_results_simp)
  -- under a join's operand list only rewriting reaches: each line's result at its own buffer, and at any other
  (try (repeat (first
    | rw [nullary_result] | rw [unary_result] | rw [binary_result] | rw [ternary_result] | rw [quaternary_result]
    | rw [reshape_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide))))))

/-- The same, then the operands that agree rewritten; the rest is the same operations. -/
local macro "stretch" : tactic => `(tactic| (lines_off; (try simp only [*]); (try rfl)))

/-! ## A: the joins -/
theorem A_v6 (h0 : at[main_arg0]) (h2 : at[main_arg2]) : after[hostOps1, main_v6] := by
  lines_off; rw [h0, h2]; try rfl
theorem A_v11 (h0 : at[main_arg0]) (h2 : at[main_arg2]) : after[hostOps1, main_v11] := by
  lines_off; rw [h0, h2]; try rfl
theorem A_v12 (h1 : at[main_arg1]) (hp : at[main_v1]) : after[hostOps1, main_v12] := by
  lines_off; rw [h1, hp]; try rfl

/-! ## B: the sort -/
theorem B_v13 (h6 : at[main_v6]) (h11 : at[main_v11]) : after[hostOps1_1, main_v13] := by stretch
theorem B_v6 (h6 : at[main_v6]) : after[hostOps1_1, main_v6] := by stretch
theorem B_v11 (h11 : at[main_v11]) : after[hostOps1_1, main_v11] := by stretch
theorem B_v12 (h12 : at[main_v12]) : after[hostOps1_1, main_v12] := by stretch

/-! ## C: the sorted gathers and the flags -/
theorem C_v20 (h13 : at[main_v13]) (h6 : at[main_v6]) : after[hostOps1_2, main_v20] := by stretch
theorem C_v27 (h13 : at[main_v13]) (h11 : at[main_v11]) : after[hostOps1_2, main_v27] := by stretch
theorem C_v34 (h13 : at[main_v13]) (h12 : at[main_v12]) : after[hostOps1_2, main_v34] := by stretch
set_option maxHeartbeats 8000000 in
theorem C_v44 (h13 : at[main_v13]) (h6 : at[main_v6]) (h11 : at[main_v11]) : after[hostOps1_2, main_v44] := by
  lines_off; rw [h13, h6, h11]; try rfl

/-! ## D: the running sum -/
theorem D_v45 (h44 : at[main_v44]) : after[hostOps1_3, main_v45] := by stretch
theorem D_v20 (h20 : at[main_v20]) : after[hostOps1_3, main_v20] := by stretch
theorem D_v27 (h27 : at[main_v27]) : after[hostOps1_3, main_v27] := by stretch
theorem D_v34 (h34 : at[main_v34]) : after[hostOps1_3, main_v34] := by stretch

/-! ## E: the scatters -/
theorem E_v50 (h45 : at[main_v45]) (h34 : at[main_v34]) : after[hostOps1_4, main_v50] := by stretch
theorem E_v58 (h45 : at[main_v45]) (h20 : at[main_v20]) : after[hostOps1_4, main_v58] := by stretch
theorem E_v66 (h45 : at[main_v45]) (h27 : at[main_v27]) : after[hostOps1_4, main_v66] := by stretch
theorem E_v69 (h45 : at[main_v45]) : after[hostOps1_4, main_v69] := by stretch

/-! ## All 89 lines -/

open Lean in
local macro "tail[" r:ident "]" : term =>
  `(StableHlo.after (List.flatten [Cert.KernelIdeal.Gen.hostOps1, Cert.KernelIdeal.Gen.hostOps1_1, Cert.KernelIdeal.Gen.hostOps1_2, Cert.KernelIdeal.Gen.hostOps1_3, Cert.KernelIdeal.Gen.hostOps1_4])
        $(mkIdent `VK) (Proc.devRef (τ := Cert.KernelIdeal.τ) .tc $(mkIdent (`Cert.KernelIdeal ++ r.getId)))
     = StableHlo.after Cert.ReferenceIdeal.Ops.tailOps $(mkIdent `VR) (Proc.devRef (τ := Cert.ReferenceIdeal.τ) .tc $(mkIdent (`Cert.ReferenceIdeal ++ r.getId))))

/-- From memories that agree on the two index arrays, the edge attributes and the projected attributes, the 89 lines
    leave the same four results. -/
theorem tail_agree (h0 : at[main_arg0]) (h1 : at[main_arg1]) (h2 : at[main_arg2]) (hp : at[main_v1]) :
    tail[main_v58] ∧ tail[main_v66] ∧ tail[main_v50] ∧ tail[main_v69] := by
  simp only [List.flatten_cons, List.flatten_nil, List.append_nil, Cert.ReferenceIdeal.Ops.tailOps, after_append]
  have a6 := A_v6 VK VR h0 h2
  have a11 := A_v11 VK VR h0 h2
  have a12 := A_v12 VK VR h1 hp
  have b13 := B_v13 _ _ a6 a11
  have b6 := B_v6 _ _ a6
  have b11 := B_v11 _ _ a11
  have b12 := B_v12 _ _ a12
  have c20 := C_v20 _ _ b13 b6
  have c27 := C_v27 _ _ b13 b11
  have c34 := C_v34 _ _ b13 b12
  have c44 := C_v44 _ _ b13 b6 b11
  have d45 := D_v45 _ _ c44
  have d20 := D_v20 _ _ c20
  have d27 := D_v27 _ _ c27
  have d34 := D_v34 _ _ c34
  exact ⟨E_v58 _ _ d45 d20, E_v66 _ _ d45 d27, E_v50 _ _ d45 d34, E_v69 _ _ d45⟩

end Cert.TailAgree

end
-- ==== Proof.Bridge.lean ====
/-
  The two programs' results are equal, as extended reals, from memories that agree on the arguments.

  The reference's second line is the host's dot product of the 1000000×32 operand with the transposed weight: at the
  ideal values, entry (a, b) is the sum over q < 32 of x (a, q) · wᵀ (q, b) — the array the kernel region leaves
  (the blocks' products, tiled). Both programs then run the same 89 lines, which read the two index arrays, the edge
  attributes and that product, and nothing else of what differs between the two memories. So the four results agree.
-/
import proofs.«103443_j23416161698498_1_alg».proof.Proof.ProjValue
import proofs.«103443_j23416161698498_1_alg».proof.Proof.RefRun
import proofs.«103443_j23416161698498_1_alg».proof.Proof.TailAgree
import proofs.«103443_j23416161698498_1_alg».proof.Proof.LibMatmul2
import Idealize.ShloMosaic.Lib.Pipeline.FrameSuffix

set_option maxRecDepth 16384

noncomputable section

namespace Cert.Bridge

open Idealize.ShloMosaic Idealize.ShloMosaic.TcCoe Idealize.SL.Sem Idealize.ShloMosaic.StableHlo
open Cert.LibMatmul2

/-! ## The reference's first two lines -/

section Ref
open Cert.ReferenceIdeal Cert.ReferenceIdeal.Ops Cert.ReferenceIdeal.Gen

variable (L : Valuation τ sig (Elt Ideal))

/-- After the transposition and the dot product, the product's buffer holds the operand times the transposed weight. -/
theorem head_v1 :
    after headOps L (Proc.devRef .tc main_v1)
      = mm (M := 1000000) (K := 32) (N := 64) (L (Proc.devRef .tc main_arg3))
          (transpose S32x64 [1, 0] (L (Proc.devRef .tc main_arg4)) transposes_S64x32_S32x64_1_0) := by
  after_results
  funext j
  exact dotGeneral_apply2 (M := 1000000) (K := 32) (N := 64) dot_S1000000x32_S32x64_S1000000x64_1_0_0_1_n_n rfl rfl
    (fun _ _ => rfl) (fun _ _ => rfl) (fun _ _ => rfl) (fun _ _ => rfl) none _ _ _ j

theorem head_arg0 : after headOps L (Proc.devRef .tc main_arg0) = L (Proc.devRef .tc main_arg0) := by after_results
theorem head_arg1 : after headOps L (Proc.devRef .tc main_arg1) = L (Proc.devRef .tc main_arg1) := by after_results
theorem head_arg2 : after headOps L (Proc.devRef .tc main_arg2) = L (Proc.devRef .tc main_arg2) := by after_results

end Ref

/-! ## The results -/

set_option maxHeartbeats 2000000 in
open Cert.KernelIdeal.Fr in
/-- On each core, from memories that agree on the five arguments: what the reference's 91 lines leave in each of
    its four result buffers is what the kernel's program leaves in its own. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    after Cert.ReferenceIdeal.Ops.ops (launchContents m' c) (Proc.devRef .tc Cert.ReferenceIdeal.main_v58) = W m (dats m) c Cert.KernelIdeal.main_v58
    ∧ after Cert.ReferenceIdeal.Ops.ops (launchContents m' c) (Proc.devRef .tc Cert.ReferenceIdeal.main_v66) = W m (dats m) c Cert.KernelIdeal.main_v66
    ∧ after Cert.ReferenceIdeal.Ops.ops (launchContents m' c) (Proc.devRef .tc Cert.ReferenceIdeal.main_v50) = W m (dats m) c Cert.KernelIdeal.main_v50
    ∧ after Cert.ReferenceIdeal.Ops.ops (launchContents m' c) (Proc.devRef .tc Cert.ReferenceIdeal.main_v69) = W m (dats m) c Cert.KernelIdeal.main_v69 := by
  -- the kernel's program: the contents the 89 lines start from
  have k0 : Pipeline.withArrays Cert.KernelIdeal.spec0 c (V0 m c) (fun w => (dats m 0 c).arrAt w Cert.KernelIdeal.cfg0.N) (Proc.devRef .tc Cert.KernelIdeal.main_arg0)
      = m ((c.tc : Thread Cert.KernelIdeal.nD Cert.KernelIdeal.τ).loc Cert.KernelIdeal.main_arg0) :=
    (Pipeline.withArrays_of_ne _ c (V0 m c) _ Cert.KernelIdeal.main_arg0 (by exact (by decide : ∀ w, Pipeline.arrRef Cert.KernelIdeal.spec0 w ≠ Cert.KernelIdeal.main_arg0))).trans (V_main_arg0 m c)
  have k1 : Pipeline.withArrays Cert.KernelIdeal.spec0 c (V0 m c) (fun w => (dats m 0 c).arrAt w Cert.KernelIdeal.cfg0.N) (Proc.devRef .tc Cert.KernelIdeal.main_arg1)
      = m ((c.tc : Thread Cert.KernelIdeal.nD Cert.KernelIdeal.τ).loc Cert.KernelIdeal.main_arg1) :=
    (Pipeline.withArrays_of_ne _ c (V0 m c) _ Cert.KernelIdeal.main_arg1 (by exact (by decide : ∀ w, Pipeline.arrRef Cert.KernelIdeal.spec0 w ≠ Cert.KernelIdeal.main_arg1))).trans (V_main_arg1 m c)
  have k2 : Pipeline.withArrays Cert.KernelIdeal.spec0 c (V0 m c) (fun w => (dats m 0 c).arrAt w Cert.KernelIdeal.cfg0.N) (Proc.devRef .tc Cert.KernelIdeal.main_arg2)
      = m ((c.tc : Thread Cert.KernelIdeal.nD Cert.KernelIdeal.τ).loc Cert.KernelIdeal.main_arg2) :=
    (Pipeline.withArrays_of_ne _ c (V0 m c) _ Cert.KernelIdeal.main_arg2 (by exact (by decide : ∀ w, Pipeline.arrRef Cert.KernelIdeal.spec0 w ≠ Cert.KernelIdeal.main_arg2))).trans (V_main_arg2 m c)
  have kp : Pipeline.withArrays Cert.KernelIdeal.spec0 c (V0 m c) (fun w => (dats m 0 c).arrAt w Cert.KernelIdeal.cfg0.N) (Proc.devRef .tc Cert.KernelIdeal.main_v1)
      = mm (M := 1000000) (K := 32) (N := 64) (m ((c.tc : Thread Cert.KernelIdeal.nD Cert.KernelIdeal.τ).loc Cert.KernelIdeal.main_arg3))
          (transpose Cert.KernelIdeal.S32x64 [1, 0] (m ((c.tc : Thread Cert.KernelIdeal.nD Cert.KernelIdeal.τ).loc Cert.KernelIdeal.main_arg4)) Cert.KernelIdeal.Gen.transposes_S64x32_S32x64_1_0) :=
    (Pipeline.withArrays_arr Cert.KernelIdeal.spec0 Cert.KernelIdeal.Gen.launch0.win.arr_inj c (V0 m c) _ 2).trans (Cert.KernelIdeal.Val.final' m c)
  -- the reference: the contents after its first two lines
  have r0 := (head_arg0 (launchContents m' c)).trans g0
  have r1 := (head_arg1 (launchContents m' c)).trans g1
  have r2 := (head_arg2 (launchContents m' c)).trans g2
  have rp : after Cert.ReferenceIdeal.Ops.headOps (launchContents m' c) (Proc.devRef .tc Cert.ReferenceIdeal.main_v1)
      = mm (M := 1000000) (K := 32) (N := 64) (m ((c.tc : Thread Cert.KernelIdeal.nD Cert.KernelIdeal.τ).loc Cert.KernelIdeal.main_arg3))
          (transpose Cert.KernelIdeal.S32x64 [1, 0] (m ((c.tc : Thread Cert.KernelIdeal.nD Cert.KernelIdeal.τ).loc Cert.KernelIdeal.main_arg4)) Cert.KernelIdeal.Gen.transposes_S64x32_S32x64_1_0) := by
    rw [head_v1]
    show mm (M := 1000000) (K := 32) (N := 64) (m' ((c.tc : Thread Cert.ReferenceIdeal.nD Cert.ReferenceIdeal.τ).loc Cert.ReferenceIdeal.main_arg3))
          (transpose Cert.ReferenceIdeal.S32x64 [1, 0] (m' ((c.tc : Thread Cert.ReferenceIdeal.nD Cert.ReferenceIdeal.τ).loc Cert.ReferenceIdeal.main_arg4)) _) = _
    rw [g3, g4]
  obtain ⟨t58, t66, t50, t69⟩ := Cert.TailAgree.tail_agree (F := Ideal)
    (Pipeline.withArrays Cert.KernelIdeal.spec0 c (V0 m c) (fun w => (dats m 0 c).arrAt w Cert.KernelIdeal.cfg0.N))
    (after Cert.ReferenceIdeal.Ops.headOps (launchContents m' c))
    (k0.trans r0.symm) (k1.trans r1.symm) (k2.trans r2.symm) (kp.trans rp.symm)
  -- the reference's 91 lines are its first two, then the 89
  have hs : after Cert.ReferenceIdeal.Ops.ops (launchContents m' c)
      = after Cert.ReferenceIdeal.Ops.tailOps (after Cert.ReferenceIdeal.Ops.headOps (launchContents m' c)) :=
    Cert.TailAgree.after_append _ _ _
  rw [hs]
  unfold W Pipeline.afterTail₀
  exact ⟨t58.symm, t66.symm, t50.symm, t69.symm⟩

end Cert.Bridge

end
-- ==== Proof.lean ====
/-
  The certificate's five claims.

  The kernel's program and its idealization are one text: the transposed weight, a region of 40 grid points each
  storing the product of a 25000-row block of the operand with the transposed weight, and 89 host lines that join the
  index arrays and the attributes, sort the index pairs, and sum the attributes of equal pairs. Its run (at the word
  level and at the ideal values alike) ends with the arguments as launched: the three frames. No operation was
  rewritten by the idealization, so there is nothing to preserve. At the ideal values the region leaves the whole
  product, which is what the reference's one dot product computes; the 89 lines are the same in both programs and
  read only what agrees: the results are equal.
-/
import proofs.«103443_j23416161698498_1_alg».proof.Defs
import proofs.«103443_j23416161698498_1_alg».proof.Proof.Gen.Kernel
import proofs.«103443_j23416161698498_1_alg».proof.Proof.Gen.KernelIdeal
import proofs.«103443_j23416161698498_1_alg».proof.Proof.Gen.ReferenceIdeal
import proofs.«103443_j23416161698498_1_alg».proof.Proof.Gen.Pre_finite_inputs
import proofs.«103443_j23416161698498_1_alg».proof.Proof.FrameBits
import proofs.«103443_j23416161698498_1_alg».proof.Proof.FrameIdeal
import proofs.«103443_j23416161698498_1_alg».proof.Proof.RefRun
import proofs.«103443_j23416161698498_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ => Cert.ReferenceIdeal.Ops.frame m ρ

theorem preserves : Cert.preserves_Kernel_KernelIdeal := trivial

open Cert.KernelIdeal.Fr in
/-- Both idealized programs run, from memories agreeing on the arguments, to equal results: the witnesses are what
    the kernel's program leaves in its four result buffers. -/
theorem algebraic : Cert.algebraic_KernelIdeal_ReferenceIdeal := by
  intro m ρ m' ρ' _ hagree
  refine ⟨fun c => W m (dats m) c Cert.KernelIdeal.main_v58, fun c => W m (dats m) c Cert.KernelIdeal.main_v66,
    fun c => W m (dats m) c Cert.KernelIdeal.main_v50, fun c => W m (dats m) c Cert.KernelIdeal.main_v69, ?_, ?_⟩
  · refine (θ_run Cert.KernelIdeal.defs _ _).mono (fun r h c => ?_) (run_main (F := Ideal) m ρ)
    obtain ⟨a0, a1, a2, a3, a4⟩ := args_kept m r h c
    exact ⟨(h c).2 Cert.KernelIdeal.main_v58 (Pipeline.mem_restRefs_of Cert.KernelIdeal.main_v58 (by decide) (by decide)),
      (h c).2 Cert.KernelIdeal.main_v66 (Pipeline.mem_restRefs_of Cert.KernelIdeal.main_v66 (by decide) (by decide)),
      (h c).2 Cert.KernelIdeal.main_v50 (Pipeline.mem_restRefs_of Cert.KernelIdeal.main_v50 (by decide) (by decide)),
      (h c).2 Cert.KernelIdeal.main_v69 (Pipeline.mem_restRefs_of Cert.KernelIdeal.main_v69 (by decide) (by decide)),
      a0, a1, a2, a3, a4⟩
  · refine (θ_run Cert.ReferenceIdeal.defs _ _).mono (fun r h c => ?_) (Cert.ReferenceIdeal.Ops.run_main (F := Ideal) m' ρ')
    obtain ⟨a0, a1, a2, a3, a4⟩ := Cert.ReferenceIdeal.Ops.args_kept m' r h c
    obtain ⟨g0, g1, g2, g3, g4⟩ := hagree c
    obtain ⟨t58, t66, t50, t69⟩ := Cert.Bridge.results m m' c g0 g1 g2 g3 g4
    exact ⟨(h c Cert.ReferenceIdeal.main_v58).trans t58, (h c Cert.ReferenceIdeal.main_v66).trans t66,
      (h c Cert.ReferenceIdeal.main_v50).trans t50, (h c Cert.ReferenceIdeal.main_v69).trans t69, a0, a1, a2, a3, a4⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
